-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128x1 .f32) (main_arg9 : FVec F S1 .f32) (main_arg10 : FVec F S256x128 .f32) (main_arg11 : FVec F S128 .f32) (main_arg12 : FVec F S128x1 .f32) (main_arg13 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S256x128 .f32) (main_arg7 : FVec F S128 .f32) (main_arg8 : FVec F S128x1 .f32) (main_arg9 : FVec F S1 .f32) (main_arg10 : FVec F S256x128 .f32) (main_arg11 : FVec F S128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S128x1 .f32) (main_arg9 : FVec F S1 .f32) (main_arg10 : FVec F S256x128 .f32) (main_arg11 : FVec F S128 .f32) (main_arg12 : FVec F S128x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x1 : Shape := ⟨2, ![1, 1]⟩
abbrev S3200x128 : Shape := ⟨2, ![3200, 128]⟩
abbrev S3200x256 : Shape := ⟨2, ![3200, 256]⟩
abbrev S3200x1 : Shape := ⟨2, ![3200, 1]⟩
abbrev S50000 : Shape := ⟨1, ![50000]⟩
abbrev S50000x1 : Shape := ⟨2, ![50000, 1]⟩
abbrev S2000x128 : Shape := ⟨2, ![2000, 128]⟩
abbrev S2000x256 : Shape := ⟨2, ![2000, 256]⟩
abbrev S2000x1 : Shape := ⟨2, ![2000, 1]⟩

abbrev nBuf : Space → Nat
  | .hbm => 81
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S256x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S256x128, .bf16⟩
  | .hbm, ⟨37, _⟩ => ⟨S128x1, .bf16⟩
  | .hbm, ⟨38, _⟩ => ⟨S128x128, .bf16⟩
  | .hbm, ⟨39, _⟩ => ⟨S128x128, .bf16⟩
  | .hbm, ⟨40, _⟩ => ⟨S1x128, .f32⟩
  | .hbm, ⟨41, _⟩ => ⟨S1x1, .f32⟩
  | .hbm, ⟨42, _⟩ => ⟨S1x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S50000, .f32⟩
  | .hbm, ⟨50, _⟩ => ⟨S800000x1, .i32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S256x128, .bf16⟩
  | .hbm, ⟨77, _⟩ => ⟨S128x1, .bf16⟩
  | .hbm, ⟨78, _⟩ => ⟨S1x128, .f32⟩
  | .hbm, ⟨79, _⟩ => ⟨S1x1, .f32⟩
  | .hbm, ⟨80, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S256x128, .bf16⟩
  | .local _ .vmem, ⟨5, _⟩ => ⟨S1x128, .f32⟩
  | .local _ .vmem, ⟨6, _⟩ => ⟨S128x1, .bf16⟩
  | .local _ .vmem, ⟨7, _⟩ => ⟨S1x1, .f32⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S3200x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S256x128, .bf16⟩
  | .local _ .vmem, ⟨23, _⟩ => ⟨S1x128, .f32⟩
  | .local _ .vmem, ⟨24, _⟩ => ⟨S128x1, .bf16⟩
  | .local _ .vmem, ⟨25, _⟩ => ⟨S1x1, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_cst : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3200x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3200x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  shapeCasts_S128_S1x128 : S128.ShapeCasts S1x128
  shapeCasts_S1_S1x1 : S1.ShapeCasts S1x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  concatenates_S3200x128_S3200x128_S3200x256_d1 : Shape.Concatenates [S3200x128, S3200x128] S3200x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S3200x1_S3200x128 : S3200x1.Broadcasts S3200x128
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  broadcasts_S1x128_S2000x128 : S1x128.Broadcasts S2000x128
  broadcasts_S1x1_S2000x1 : S1x1.Broadcasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  dot_S3200x256_S256x128_S3200x128_1_0_0_1_n_n_wf : DotDims.WF S3200x256 S256x128 S3200x128 [1] [0] [0] [1] [] []
  dot_S3200x128_S128x1_S3200x1_1_0_0_1_n_n_wf : DotDims.WF S3200x128 S128x1 S3200x1 [1] [0] [0] [1] [] []
  dot_S3200x128_S128x128_S3200x128_1_0_0_1_n_n_wf : DotDims.WF S3200x128 S128x128 S3200x128 [1] [0] [0] [1] [] []
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .bf16 = 32 ∨ (Rect.block (s := S128x1) S128x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x128.size a ≤ S800000x128.size a
  hwx0_10 : ∀ i : grid0.Coords, EltTy.bits .f32 = 32 ∨ (Rect.block (s := S800000x128) S3200x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x128.size a ≤ S800000x128.size a
  hwx0_11 : ∀ i : grid0.Coords, EltTy.bits .f32 = 32 ∨ (Rect.block (s := S800000x128) S3200x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .bf16 = 32 ∨ (Rect.block (s := S128x1) S128x1.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def dot_S3200x128_S128x1_S3200x1_1_0_0_1_n_n : DotDims S3200x128 S128x1 S3200x1 where
  lhsContracting := [1]
  rhsContracting := [0]
  lhsNonContracting := [0]
  rhsNonContracting := [1]
  lhsBatch := []
  rhsBatch := []
  wf := dot_S3200x128_S128x1_S3200x1_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26_0) S3200x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26_1) S3200x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S1x1 : Shape := ⟨2, ![1, 1]⟩
abbrev S50000 : Shape := ⟨1, ![50000]⟩
abbrev S50000x1 : Shape := ⟨2, ![50000, 1]⟩
abbrev S50000x256 : Shape := ⟨2, ![50000, 256]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S128x1, .f32⟩
  | 9 => ⟨S1, .f32⟩
  | 10 => ⟨S256x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x256, .f32⟩
  | 37 => ⟨S800000x128, .f32⟩
  | 38 => ⟨S1x128, .f32⟩
  | 39 => ⟨S800000x128, .f32⟩
  | 40 => ⟨S800000x128, .f32⟩
  | 41 => ⟨S_, .f32⟩
  | 42 => ⟨S800000x128, .f32⟩
  | 43 => ⟨S800000x128, .f32⟩
  | 44 => ⟨S800000x1, .f32⟩
  | 45 => ⟨S1x1, .f32⟩
  | 46 => ⟨S800000x1, .f32⟩
  | 47 => ⟨S800000x1, .f32⟩
  | 48 => ⟨S800000, .f32⟩
  | 49 => ⟨S800000, .f32⟩
  | 50 => ⟨S800000, .f32⟩
  | 51 => ⟨S_, .f32⟩
  | 52 => ⟨S800000, .f32⟩
  | 53 => ⟨S800000, .f32⟩
  | 54 => ⟨S_, .f32⟩
  | 55 => ⟨S800000, .f32⟩
  | 56 => ⟨S800000, .f32⟩
  | 57 => ⟨S800000x128, .f32⟩
  | 58 => ⟨S1x128, .f32⟩
  | 59 => ⟨S800000x128, .f32⟩
  | 60 => ⟨S800000x128, .f32⟩
  | 61 => ⟨S800000x1, .f32⟩
  | 62 => ⟨S800000x128, .f32⟩
  | 63 => ⟨S800000x128, .f32⟩
  | 64 => ⟨S800000x128, .f32⟩
  | 65 => ⟨S1x128, .f32⟩
  | 66 => ⟨S800000x128, .f32⟩
  | 67 => ⟨S800000x128, .f32⟩
  | 68 => ⟨S800000x1, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S_, .f32⟩
  | 76 => ⟨S50000x128, .f32⟩
  | 77 => ⟨S800000x1, .i32⟩
  | 78 => ⟨S50000x128, .f32⟩
  | 79 => ⟨S_, .f32⟩
  | 80 => ⟨S800000, .f32⟩
  | 81 => ⟨S_, .f32⟩
  | 82 => ⟨S50000, .f32⟩
  | 83 => ⟨S800000x1, .i32⟩
  | 84 => ⟨S50000, .f32⟩
  | 85 => ⟨S_, .f32⟩
  | 86 => ⟨S50000, .f32⟩
  | 87 => ⟨S50000, .f32⟩
  | 88 => ⟨S_, .f32⟩
  | 89 => ⟨S50000, .f32⟩
  | 90 => ⟨S800000x1, .i32⟩
  | 91 => ⟨S50000, .f32⟩
  | 92 => ⟨S_, .f32⟩
  | 93 => ⟨S50000, .f32⟩
  | 94 => ⟨S50000, .f32⟩
  | 95 => ⟨S50000x1, .f32⟩
  | 96 => ⟨S50000x128, .f32⟩
  | 97 => ⟨S50000x128, .f32⟩
  | 98 => ⟨S50000x1, .f32⟩
  | 99 => ⟨S50000x128, .f32⟩
  | 100 => ⟨S50000x128, .f32⟩
  | 101 => ⟨S50000x256, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x1, .f32⟩
  | 110 => ⟨S1x1, .f32⟩
  | 111 => ⟨S50000x1, .f32⟩
  | 112 => ⟨S50000x1, .f32⟩
  | 113 => ⟨S50000x1, .f32⟩
  | 114 => ⟨S50000x1, .f32⟩
  | 115 => ⟨S_, .f32⟩
  | 116 => ⟨S50000x1, .f32⟩
  | 117 => ⟨S50000x1, .f32⟩
  | 118 => ⟨S_, .f32⟩
  | 119 => ⟨S50000x1, .f32⟩
  | 120 => ⟨S50000x1, .f32⟩
  | 121 => ⟨S50000x128, .f32⟩
  | 122 => ⟨S50000x128, .f32⟩
  | 123 => ⟨S_, .f32⟩
  | 124 => ⟨S50000x1, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_cst_9 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call1_cst : Ref sig .tc := ⟨.hbm, 106, rfl⟩
abbrev main_call1_v0 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_11 : Ref sig .tc := ⟨.hbm, 115, rfl⟩
abbrev main_v84 : Ref sig .tc := ⟨.hbm, 116, rfl⟩
abbrev main_v85 : Ref sig .tc := ⟨.hbm, 117, rfl⟩
abbrev main_cst_12 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_13 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KHost.lean ====
/-
  The arrays the two kernels are entered with, as functions of the launch arguments. Before the edge kernel the
  host gathers the rows of the input table at the two index rows, narrows the four weight matrices and lays the
  four bias vectors out as rows; these are the reference's own gathered tables and, for the weights and biases,
  a change of format and a change of layout of the arguments. Between the kernels the host scatter-sums the two
  message arrays and divides by the clamped degrees: the reference's normalised aggregates, once the edge
  kernel's two results are the reference's messages.
-/
import proofs.«148664_j19439021982026_1_alg».proof.Proof.FrameKI
import proofs.«148664_j19439021982026_1_alg».proof.Proof.Gen.ReferenceIdeal.Read
import Idealize.ShloMosaic.Lib.StableHlo.Run

noncomputable section

namespace Cert.KernelIdeal.Vals

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the edge kernel -/

set_option maxHeartbeats 2000000 in
/-- The rows of the input table gathered at the first index row. -/
theorem entry0_src (c : Dev nD) :
    (V1 m ρ c main_v10 : S800000x128.Idx → F .f32) = Cert.ReferenceIdeal.Read.val_main_v10 (F := F) (m ((c.tc : Thread nD τ).loc main_arg0)) (m ((c.tc : Thread nD τ).loc main_arg1)) := by
  show StableHlo.after hostOps0 (W0 m ρ c) (Proc.devRef .tc main_v10) = _
  generalize hR : Cert.ReferenceIdeal.Read.val_main_v10 (F := F) (m ((c.tc : Thread nD τ).loc main_arg0)) (m ((c.tc : Thread nD τ).loc main_arg1)) = R
  after_results
  subst hR
  unfold Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_c_0 Cert.ReferenceIdeal.Read.val_main_v5 Cert.ReferenceIdeal.Read.val_main_v4 Cert.ReferenceIdeal.Read.val_main_c Cert.ReferenceIdeal.Read.val_main_v1 Cert.ReferenceIdeal.Read.val_main_v0
  have e0 : W0 m ρ c (Proc.tc.devRef main_arg0) = m (c.tc.loc main_arg0) := rfl
  have e1 : W0 m ρ c (Proc.tc.devRef main_arg1) = m (c.tc.loc main_arg1) := rfl
  rw [e0, e1]
  simp only [eqRec_eq_cast, cast_eq, eq_mp_eq_cast, eq_mpr_eq_cast]
  rfl

set_option maxHeartbeats 2000000 in
/-- The rows of the input table gathered at the second index row. -/
theorem entry0_dst (c : Dev nD) :
    (V1 m ρ c main_v17 : S800000x128.Idx → F .f32) = Cert.ReferenceIdeal.Read.val_main_v17 (F := F) (m ((c.tc : Thread nD τ).loc main_arg0)) (m ((c.tc : Thread nD τ).loc main_arg1)) := by
  show StableHlo.after hostOps0 (W0 m ρ c) (Proc.devRef .tc main_v17) = _
  generalize hR : Cert.ReferenceIdeal.Read.val_main_v17 (F := F) (m ((c.tc : Thread nD τ).loc main_arg0)) (m ((c.tc : Thread nD τ).loc main_arg1)) = R
  after_results
  subst hR
  unfold Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_c_2 Cert.ReferenceIdeal.Read.val_main_v12 Cert.ReferenceIdeal.Read.val_main_v11 Cert.ReferenceIdeal.Read.val_main_c_1 Cert.ReferenceIdeal.Read.val_main_v3 Cert.ReferenceIdeal.Read.val_main_v2
  have e0 : W0 m ρ c (Proc.tc.devRef main_arg0) = m (c.tc.loc main_arg0) := rfl
  have e1 : W0 m ρ c (Proc.tc.devRef main_arg1) = m (c.tc.loc main_arg1) := rfl
  rw [e0, e1]
  simp only [eqRec_eq_cast, cast_eq, eq_mp_eq_cast, eq_mpr_eq_cast]
  rfl

theorem entry0_we1 (c : Dev nD) : (V1 m ρ c main_v18 : S256x128.Idx → F .bf16) = truncf .bf16 (m ((c.tc : Thread nD τ).loc main_arg6)) bitsLt_bf16_f32 := by
  show StableHlo.after hostOps0 (W0 m ρ c) (Proc.devRef .tc main_v18) = _
  after_results <;> rfl
theorem entry0_be1 (c : Dev nD) : (V1 m ρ c main_v22 : S1x128.Idx → F .f32) = shapeCast S1x128 (m ((c.tc : Thread nD τ).loc main_arg7)) shapeCasts_S128_S1x128 := by
  show StableHlo.after hostOps0 (W0 m ρ c) (Proc.devRef .tc main_v22) = _
  after_results <;> rfl
theorem entry0_we2 (c : Dev nD) : (V1 m ρ c main_v19 : S128x1.Idx → F .bf16) = truncf .bf16 (m ((c.tc : Thread nD τ).loc main_arg8)) bitsLt_bf16_f32 := by
  show StableHlo.after hostOps0 (W0 m ρ c) (Proc.devRef .tc main_v19) = _
  after_results <;> rfl
theorem entry0_be2 (c : Dev nD) : (V1 m ρ c main_v23 : S1x1.Idx → F .f32) = shapeCast S1x1 (m ((c.tc : Thread nD τ).loc main_arg9)) shapeCasts_S1_S1x1 := by
  show StableHlo.after hostOps0 (W0 m ρ c) (Proc.devRef .tc main_v23) = _
  after_results <;> rfl
theorem entry0_ws2d (c : Dev nD) : (V1 m ρ c main_v20 : S128x128.Idx → F .bf16) = truncf .bf16 (m ((c.tc : Thread nD τ).loc main_arg2)) bitsLt_bf16_f32 := by
  show StableHlo.after hostOps0 (W0 m ρ c) (Proc.devRef .tc main_v20) = _
  after_results <;> rfl
theorem entry0_bs2d (c : Dev nD) : (V1 m ρ c main_v24 : S1x128.Idx → F .f32) = shapeCast S1x128 (m ((c.tc : Thread nD τ).loc main_arg3)) shapeCasts_S128_S1x128 := by
  show StableHlo.after hostOps0 (W0 m ρ c) (Proc.devRef .tc main_v24) = _
  after_results <;> rfl
theorem entry0_wd2s (c : Dev nD) : (V1 m ρ c main_v21 : S128x128.Idx → F .bf16) = truncf .bf16 (m ((c.tc : Thread nD τ).loc main_arg4)) bitsLt_bf16_f32 := by
  show StableHlo.after hostOps0 (W0 m ρ c) (Proc.devRef .tc main_v21) = _
  after_results <;> rfl
theorem entry0_bd2s (c : Dev nD) : (V1 m ρ c main_v25 : S1x128.Idx → F .f32) = shapeCast S1x128 (m ((c.tc : Thread nD τ).loc main_arg5)) shapeCasts_S128_S1x128 := by
  show StableHlo.after hostOps0 (W0 m ρ c) (Proc.devRef .tc main_v25) = _
  after_results <;> rfl

set_option maxHeartbeats 2000000 in
/-- The two index rows, as the host reads them off the index array before the edge kernel. -/
theorem entry0_idx_src (c : Dev nD) : (W1 m ρ c (Proc.devRef .tc main_v1) : S800000.Idx → BitVec 32) = Cert.ReferenceIdeal.Read.val_main_v1 (F := F) (m ((c.tc : Thread nD τ).loc main_arg1)) := by
  show StableHlo.after hostOps0 (W0 m ρ c) (Proc.devRef .tc main_v1) = _
  generalize hR : Cert.ReferenceIdeal.Read.val_main_v1 (F := F) (m ((c.tc : Thread nD τ).loc main_arg1)) = R
  after_results
  subst hR
  unfold Cert.ReferenceIdeal.Read.val_main_v1 Cert.ReferenceIdeal.Read.val_main_v0
  have e1 : W0 m ρ c (Proc.tc.devRef main_arg1) = m (c.tc.loc main_arg1) := rfl
  rw [e1]
  simp only [eqRec_eq_cast, cast_eq, eq_mp_eq_cast, eq_mpr_eq_cast]
  rfl
set_option maxHeartbeats 2000000 in
theorem entry0_idx_dst (c : Dev nD) : (W1 m ρ c (Proc.devRef .tc main_v3) : S800000.Idx → BitVec 32) = Cert.ReferenceIdeal.Read.val_main_v3 (F := F) (m ((c.tc : Thread nD τ).loc main_arg1)) := by
  show StableHlo.after hostOps0 (W0 m ρ c) (Proc.devRef .tc main_v3) = _
  generalize hR : Cert.ReferenceIdeal.Read.val_main_v3 (F := F) (m ((c.tc : Thread nD τ).loc main_arg1)) = R
  after_results
  subst hR
  unfold Cert.ReferenceIdeal.Read.val_main_v3 Cert.ReferenceIdeal.Read.val_main_v2
  have e1 : W0 m ρ c (Proc.tc.devRef main_arg1) = m (c.tc.loc main_arg1) := rfl
  rw [e1]
  simp only [eqRec_eq_cast, cast_eq, eq_mp_eq_cast, eq_mpr_eq_cast]
  rfl

end Cert.KernelIdeal.Vals

end
-- ==== Proof.LibRowGate.lean ====
/-
  A gate computed row by row. Two rows of 128 entries are laid side by side, sent through a dense layer of
  128 rectified units and then through one linear unit, and the result is squashed by the logistic function:
  a score in [0, 1] for the pair of rows. A message is a row times a matrix plus a bias row, scaled by such a
  score; a fusion is the convex mixture of two entries by a score, plus a third entry.
  Here these are functions of rows over the extended reals, and an [n, 256] array made of two [n, 128]
  arrays joined along the columns is read at an entry.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowGate

open Idealize.ShloMosaic Idealize.ShloMosaic.ValueIdx

/-- Two rows of 128 entries side by side: entry k of the first for k < 128, entry k - 128 of the second after. -/
def cat (a b : Fin 128 → EReal) (k : Fin 256) : EReal :=
  if h : k.val < 128 then a ⟨k.val, h⟩ else b ⟨k.val - 128, by have := k.isLt; omega⟩

/-- Rectified unit j of the dense layer on the joined rows: max (Σₖ cat a b k · W1 k j + b1 j) 0. -/
def hidden (a b : Fin 128 → EReal) (W1 : Fin 256 → Fin 128 → EReal) (b1 : Fin 128 → EReal) (j : Fin 128) : EReal :=
  max ((∑ k : Fin 256, cat a b k * W1 k j) + b1 j) 0

/-- The score of a pair of rows: the logistic function of Σⱼ hidden j · W2 j + b2. -/
def score (a b : Fin 128 → EReal) (W1 : Fin 256 → Fin 128 → EReal) (b1 : Fin 128 → EReal)
    (W2 : Fin 128 → EReal) (b2 : EReal) : EReal :=
  Ideal.logistic ((∑ j : Fin 128, hidden a b W1 b1 j * W2 j) + b2)

/-- Entry o of a message: (Σₖ a k · W k o + b o) · s. -/
def msg (a : Fin 128 → EReal) (W : Fin 128 → Fin 128 → EReal) (b : Fin 128 → EReal) (s : EReal) (o : Fin 128) : EReal :=
  ((∑ k : Fin 128, a k * W k o) + b o) * s

/-- The mixture g · u + (1 - g) · v, plus x; the one is kept as its single-precision pattern. -/
def fuse (g u v x : EReal) : EReal :=
  g * u + (Ideal.ofBits .f32 0x3F800000#32 - g) * v + x

/-- Two [n, 128] arrays joined along the columns, read at (p, k): the first at (p, k) for k < 128, the second at
    (p, k - 128) after. -/
theorem concat_apply {n : ℕ} {α : Type} (x₁ x₂ : (⟨2, ![n, 128]⟩ : Shape).Idx → α)
    (h : Shape.Concatenates [(⟨2, ![n, 128]⟩ : Shape), ⟨2, ![n, 128]⟩] ⟨2, ![n, 256]⟩ 1) (p : Fin n) (k : Fin 256) :
    concatenate ⟨2, ![n, 256]⟩ 1 [⟨⟨2, ![n, 128]⟩, x₁⟩, ⟨⟨2, ![n, 128]⟩, x₂⟩] h (ix2 p k)
      = if hk : k.val < 128 then x₁ (ix2 p ⟨k.val, hk⟩)
        else x₂ (ix2 p ⟨k.val - 128, by have := k.isLt; omega⟩) := by
  split
  · rename_i hk
    exact concatenate_pair_apply_left 1 x₁ x₂ h (ix2 p k) rfl (ix2 p ⟨k.val, hk⟩) (fun b => by
      match b with
      | ⟨0, _⟩ => rfl
      | ⟨1, _⟩ => rfl)
  · rename_i hk
    exact concatenate_pair_apply_right 1 x₁ x₂ h (ix2 p k) rfl rfl (ix2 p ⟨k.val - 128, by have := k.isLt; omega⟩)
      (fun b hb => by
        match b with
        | ⟨0, _⟩ => rfl
        | ⟨1, _⟩ => exact absurd rfl hb)
      (by show (k.val - 128) + 128 = k.val; omega)

/-- The joined rows of two arrays of extended reals at row p are `cat` of their rows. -/
theorem concat_row {n : ℕ} (x₁ x₂ : (⟨2, ![n, 128]⟩ : Shape).Idx → EReal)
    (h : Shape.Concatenates [(⟨2, ![n, 128]⟩ : Shape), ⟨2, ![n, 128]⟩] ⟨2, ![n, 256]⟩ 1) (p : Fin n) (k : Fin 256) :
    concatenate ⟨2, ![n, 256]⟩ 1 [⟨⟨2, ![n, 128]⟩, x₁⟩, ⟨⟨2, ![n, 128]⟩, x₂⟩] h (ix2 p k)
      = cat (fun k => x₁ (ix2 p k)) (fun k => x₂ (ix2 p k)) k :=
  concat_apply x₁ x₂ h p k

/-- One over one plus the exponential of the negative is the logistic function (the ones as single-precision patterns). -/
theorem div_one_add_exp_neg (z : EReal) :
    Ideal.div (Ideal.ofBits .f32 0x3F800000#32) (Ideal.ofBits .f32 0x3F800000#32 + Ideal.exp (-z)) = Ideal.logistic z := by
  have h1 : Ideal.ofBits .f32 0x3F800000#32 = 1 := by simp [Ideal.ofBits, Ideal.ieee, -EReal.coe_mul]; norm_num
  rw [h1]; rfl

end Cert.RowGate

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.KerTiles.lean ====
/-
  What one grid point of each kernel stores, entry by entry, over the extended reals: the edge kernel's two
  message tiles and the node kernel's fused tile, as the row-wise gate functions of the tiles it loads.
-/
import proofs.«148664_j19439021982026_1_alg».proof.Proof.Gen.KernelIdeal.Skeleton
import proofs.«148664_j19439021982026_1_alg».proof.Proof.LibRowGate
import proofs.«148664_j19439021982026_1_alg».proof.Proof.LibPlainProduct
import proofs.«148664_j19439021982026_1_alg».proof.Proof.LibTile

noncomputable section

namespace Cert.KernelIdeal.Tiles

open Cert.KernelIdeal Cert.KernelIdeal.Gen Idealize.ShloMosaic Idealize.ShloMosaic.ValueIdx Cert.RowGate

/-- Each contraction of the two kernels is the plain product of an [M, K] array by a [K, N] array. -/
private theorem dot_edge_hidden : dot_S3200x256_S256x128_S3200x128_1_0_0_1_n_n = DotDims.plain 3200 256 128 := rfl
private theorem dot_edge_out : dot_S3200x128_S128x1_S3200x1_1_0_0_1_n_n = DotDims.plain 3200 128 1 := rfl
private theorem dot_edge_msg : dot_S3200x128_S128x128_S3200x128_1_0_0_1_n_n = DotDims.plain 3200 128 128 := rfl
private theorem dot_node_hidden : dot_S2000x256_S256x128_S2000x128_1_0_0_1_n_n = DotDims.plain 2000 256 128 := rfl
private theorem dot_node_out : dot_S2000x128_S128x1_S2000x1_1_0_0_1_n_n = DotDims.plain 2000 128 1 := rfl

/-- Over the extended reals rounding to the narrower format is the identity, and so is a cast to the same shape:
    the rounded gathered tiles are the gathered tiles, the cast weights are the weights. -/
private theorem pay2_eq (v0 : Vec Ideal S3200x128 .f32) : (k0_pay2 (F := Ideal) v0 : S3200x128.Idx → EReal) = v0 :=
  shapeCast_self v0 shapeCasts_S3200x128_S3200x128

private theorem pay3_eq (v2 : Vec Ideal S3200x128 .f32) : (k0_pay3 (F := Ideal) v2 : S3200x128.Idx → EReal) = v2 :=
  shapeCast_self v2 shapeCasts_S3200x128_S3200x128

private theorem pay6_eq (v34 : Vec Ideal S128x128 .bf16) : k0_pay6 (F := Ideal) v34 = v34 :=
  shapeCast_self v34 shapeCasts_S128x128_S128x128

/-- The hidden layer of an n-row tile pair at (p, j): the joined rows p times column j of the first weights, plus
    the bias row at j, rectified. -/
private theorem hidden_apply {n : ℕ} (x₁ x₂ : FVec Ideal ⟨2, ![n, 128]⟩ .bf16) (v7 : FVec Ideal S256x128 .bf16)
    (v10 : FVec Ideal S1x128 .f32)
    (hc : Shape.Concatenates [(⟨2, ![n, 128]⟩ : Shape), ⟨2, ![n, 128]⟩] ⟨2, ![n, 256]⟩ 1)
    (hb : S1x128.Broadcasts ⟨2, ![n, 128]⟩) (p : Fin n) (j : Fin 128) :
    maximumf
        (addf (matmul (F := Ideal) (DotDims.plain n 256 128) none
                (concatenate ⟨2, ![n, 256]⟩ 1 [⟨⟨2, ![n, 128]⟩, x₁⟩, ⟨⟨2, ![n, 128]⟩, x₂⟩] hc)
                (shapeCast S256x128 v7 shapeCasts_S256x128_S256x128)
                (constant (F := Ideal) ⟨2, ![n, 128]⟩ .f32 0x00000000#32))
              (broadcastTo ⟨2, ![n, 128]⟩ (shapeCast S1x128 v10 shapeCasts_S1x128_S1x128) hb))
        (broadcast ⟨2, ![n, 128]⟩ (Scalar.ofBits (F := Ideal) .f32 0x00000000#32)) (ix2 p j)
      = hidden (fun k => x₁ (ix2 p k)) (fun k => x₂ (ix2 p k)) (fun k j => v7 (ix2 k j))
          (fun j => v10 (ix2 (0 : Fin 1) j)) j :=
  congrArg₂ max
    (congrArg₂ (· + ·)
      ((Cert.PlainProduct.matmul_zero_apply none _ _ p j).trans
        (Finset.sum_congr rfl fun k _ => congrArg₂ (· * ·) (concat_row x₁ x₂ hc p k)
          (congrFun (shapeCast_self v7 shapeCasts_S256x128_S256x128) (ix2 k j))))
      ((broadcastTo_1b_ab_apply _ hb p j).trans
        (congrFun (shapeCast_self v10 shapeCasts_S1x128_S1x128) (ix2 (0 : Fin 1) j))))
    Ideal.ofBits_zero_f32

/-- The score column of an n-row tile pair at row p: the hidden row p times the second weights, plus the second
    bias, through the logistic function. -/
private theorem score_col_apply {n : ℕ} (x₁ x₂ : FVec Ideal ⟨2, ![n, 128]⟩ .bf16) (v7 : FVec Ideal S256x128 .bf16)
    (v10 : FVec Ideal S1x128 .f32) (v17 : FVec Ideal S128x1 .bf16) (v20 : FVec Ideal S1x1 .f32)
    (hc : Shape.Concatenates [(⟨2, ![n, 128]⟩ : Shape), ⟨2, ![n, 128]⟩] ⟨2, ![n, 256]⟩ 1)
    (hb : S1x128.Broadcasts ⟨2, ![n, 128]⟩) (hb' : S1x1.Broadcasts ⟨2, ![n, 1]⟩) (p : Fin n) :
    logistic
        (addf (matmul (F := Ideal) (DotDims.plain n 128 1) none
                (truncf .bf16
                  (maximumf
                    (addf (matmul (F := Ideal) (DotDims.plain n 256 128) none
                            (concatenate ⟨2, ![n, 256]⟩ 1 [⟨⟨2, ![n, 128]⟩, x₁⟩, ⟨⟨2, ![n, 128]⟩, x₂⟩] hc)
                            (shapeCast S256x128 v7 shapeCasts_S256x128_S256x128)
                            (constant (F := Ideal) ⟨2, ![n, 128]⟩ .f32 0x00000000#32))
                          (broadcastTo ⟨2, ![n, 128]⟩ (shapeCast S1x128 v10 shapeCasts_S1x128_S1x128) hb))
                    (broadcast ⟨2, ![n, 128]⟩ (Scalar.ofBits (F := Ideal) .f32 0x00000000#32)))
                  bitsLt_bf16_f32)
                (shapeCast S128x1 v17 shapeCasts_S128x1_S128x1)
                (constant (F := Ideal) ⟨2, ![n, 1]⟩ .f32 0x00000000#32))
              (broadcastTo ⟨2, ![n, 1]⟩ (shapeCast S1x1 v20 shapeCasts_S1x1_S1x1) hb')) (ix2 p (0 : Fin 1))
      = score (fun k => x₁ (ix2 p k)) (fun k => x₂ (ix2 p k)) (fun k j => v7 (ix2 k j))
          (fun j => v10 (ix2 (0 : Fin 1) j)) (fun j => v17 (ix2 j (0 : Fin 1))) (v20 (ix2 (0 : Fin 1) (0 : Fin 1))) :=
  congrArg Ideal.logistic
    (congrArg₂ (· + ·)
      ((Cert.PlainProduct.matmul_zero_apply none _ _ p (0 : Fin 1)).trans
        (Finset.sum_congr rfl fun j _ => congrArg₂ (· * ·) (hidden_apply x₁ x₂ v7 v10 hc hb p j)
          (congrFun (shapeCast_self v17 shapeCasts_S128x1_S128x1) (ix2 j (0 : Fin 1)))))
      ((broadcastTo_1b_ab_apply _ hb' p (0 : Fin 1)).trans
        (congrFun (shapeCast_self v20 shapeCasts_S1x1_S1x1) (ix2 (0 : Fin 1) (0 : Fin 1)))))

/-- The edge kernel's score column at row p: the score of rows p of the two gathered tiles. -/
theorem edge_score_apply (v0 v2 : Vec Ideal S3200x128 .f32) (v7 : Vec Ideal S256x128 .bf16) (v10 : Vec Ideal S1x128 .f32)
    (v17 : Vec Ideal S128x1 .bf16) (v20 : Vec Ideal S1x1 .f32) (p : Fin 3200) :
    k0_pay4 (F := Ideal) v0 v2 v7 v10 v17 v20 (ix2 p (0 : Fin 1))
      = score (fun k => v0 (ix2 p k)) (fun k => v2 (ix2 p k)) (fun k j => v7 (ix2 k j)) (fun j => v10 (ix2 (0 : Fin 1) j))
          (fun j => v17 (ix2 j (0 : Fin 1))) (v20 (ix2 (0 : Fin 1) (0 : Fin 1))) := by
  unfold k0_pay4
  rw [dot_edge_hidden, dot_edge_out]
  refine (score_col_apply (k0_pay2 (F := Ideal) v0) (k0_pay3 (F := Ideal) v2) v7 v10 v17 v20
    concatenates_S3200x128_S3200x128_S3200x256_d1 broadcasts_S1x128_S3200x128 broadcasts_S1x1_S3200x1 p).trans ?_
  rw [pay2_eq, pay3_eq]

/-- A message tile at (p, o): row p of the rounded tile times column o of the weights, plus the bias row at o,
    scaled by the score column at row p. -/
private theorem msg_apply (x : FVec Ideal S3200x128 .bf16) (s : FVec Ideal S3200x1 .f32) (W : FVec Ideal S128x128 .bf16)
    (b : FVec Ideal S1x128 .f32) (p : Fin 3200) (o : Fin 128) :
    mulf
        (addf (matmul (F := Ideal) (DotDims.plain 3200 128 128) none x W (constant (F := Ideal) S3200x128 .f32 0x00000000#32))
              (broadcastTo S3200x128 (shapeCast S1x128 b shapeCasts_S1x128_S1x128) broadcasts_S1x128_S3200x128))
        (broadcastTo S3200x128 s broadcasts_S3200x1_S3200x128) (ix2 p o)
      = msg (fun k => x (ix2 p k)) (fun k j => W (ix2 k j)) (fun j => b (ix2 (0 : Fin 1) j)) (s (ix2 p (0 : Fin 1))) o :=
  congrArg₂ (· * ·)
    (congrArg₂ (· + ·)
      (Cert.PlainProduct.matmul_zero_apply none x W p o)
      ((broadcastTo_1b_ab_apply _ broadcasts_S1x128_S3200x128 p o).trans
        (congrFun (shapeCast_self b shapeCasts_S1x128_S1x128) (ix2 (0 : Fin 1) o))))
    (Cert.Tile.broadcastTo_a1_ab_apply s broadcasts_S3200x1_S3200x128 p o)

/-- The first stored tile at (p, o): the message of row p of the first gathered tile, scaled by row p's score. -/
theorem edge_in_apply (v0 v2 : Vec Ideal S3200x128 .f32) (v7 : Vec Ideal S256x128 .bf16) (v10 : Vec Ideal S1x128 .f32)
    (v17 : Vec Ideal S128x1 .bf16) (v20 : Vec Ideal S1x1 .f32) (v25 : Vec Ideal S128x128 .bf16) (v28 : Vec Ideal S1x128 .f32)
    (p : Fin 3200) (o : Fin 128) :
    k0_pay5 (F := Ideal) v0 v2 v7 v10 v17 v20 v25 v28 (ix2 p o)
      = msg (fun k => v0 (ix2 p k)) (fun k j => v25 (ix2 k j)) (fun j => v28 (ix2 (0 : Fin 1) j))
          (score (fun k => v0 (ix2 p k)) (fun k => v2 (ix2 p k)) (fun k j => v7 (ix2 k j)) (fun j => v10 (ix2 (0 : Fin 1) j))
            (fun j => v17 (ix2 j (0 : Fin 1))) (v20 (ix2 (0 : Fin 1) (0 : Fin 1)))) o := by
  unfold k0_pay5
  rw [dot_edge_msg]
  refine (msg_apply (k0_pay2 (F := Ideal) v0) (k0_pay4 (F := Ideal) v0 v2 v7 v10 v17 v20)
    (shapeCast S128x128 v25 shapeCasts_S128x128_S128x128) v28 p o).trans ?_
  rw [edge_score_apply, pay2_eq, shapeCast_self v25 shapeCasts_S128x128_S128x128]

/-- The second stored tile at (p, o): the message of row p of the second gathered tile, scaled by the same score. -/
theorem edge_out_apply (v0 v2 : Vec Ideal S3200x128 .f32) (v7 : Vec Ideal S256x128 .bf16) (v10 : Vec Ideal S1x128 .f32)
    (v17 : Vec Ideal S128x1 .bf16) (v20 : Vec Ideal S1x1 .f32) (v34 : Vec Ideal S128x128 .bf16) (v37 : Vec Ideal S1x128 .f32)
    (p : Fin 3200) (o : Fin 128) :
    k0_pay1 (F := Ideal) (k0_pay3 v2) (k0_pay4 v0 v2 v7 v10 v17 v20) (k0_pay6 v34) (constant S3200x128 .f32 0x00000000#32) v37 (ix2 p o)
      = msg (fun k => v2 (ix2 p k)) (fun k j => v34 (ix2 k j)) (fun j => v37 (ix2 (0 : Fin 1) j))
          (score (fun k => v0 (ix2 p k)) (fun k => v2 (ix2 p k)) (fun k j => v7 (ix2 k j)) (fun j => v10 (ix2 (0 : Fin 1) j))
            (fun j => v17 (ix2 j (0 : Fin 1))) (v20 (ix2 (0 : Fin 1) (0 : Fin 1)))) o := by
  unfold k0_pay1
  rw [dot_edge_msg]
  refine (msg_apply (k0_pay3 (F := Ideal) v2) (k0_pay4 (F := Ideal) v0 v2 v7 v10 v17 v20)
    (k0_pay6 (F := Ideal) v34) v37 p o).trans ?_
  rw [edge_score_apply, pay3_eq, pay6_eq]

/-- The node kernel's stored tile at (p, o): the two normalised aggregates mixed by row p's score, plus the input. -/
theorem gate_apply (v0 v2 : Vec Ideal S2000x128 .f32) (v7 : Vec Ideal S256x128 .bf16) (v10 : Vec Ideal S1x128 .f32)
    (v17 : Vec Ideal S128x1 .bf16) (v20 : Vec Ideal S1x1 .f32) (v32 : Vec Ideal S2000x128 .f32) (p : Fin 2000) (o : Fin 128) :
    k1_pay1 (F := Ideal) v0 v2 v7 v10 v17 v20 v32 (ix2 p o)
      = fuse (score (fun k => v0 (ix2 p k)) (fun k => v2 (ix2 p k)) (fun k j => v7 (ix2 k j)) (fun j => v10 (ix2 (0 : Fin 1) j))
            (fun j => v17 (ix2 j (0 : Fin 1))) (v20 (ix2 (0 : Fin 1) (0 : Fin 1))))
          (v0 (ix2 p o)) (v2 (ix2 p o)) (v32 (ix2 p o)) := by
  -- the two aggregates, cast to their own shape and rounded, are themselves
  have e0 : shapeCast S2000x128 v0 shapeCasts_S2000x128_S2000x128 = v0 := shapeCast_self v0 _
  have e2 : shapeCast S2000x128 v2 shapeCasts_S2000x128_S2000x128 = v2 := shapeCast_self v2 _
  -- the score column at row p
  have hs := score_col_apply
    (truncf .bf16 (shapeCast S2000x128 v0 shapeCasts_S2000x128_S2000x128) bitsLt_bf16_f32)
    (truncf .bf16 (shapeCast S2000x128 v2 shapeCasts_S2000x128_S2000x128) bitsLt_bf16_f32) v7 v10 v17 v20
    concatenates_S2000x128_S2000x128_S2000x256_d1 broadcasts_S1x128_S2000x128 broadcasts_S1x1_S2000x1 p
  unfold k1_pay1
  rw [dot_node_hidden, dot_node_out]
  refine (congrArg₂ (· + ·)
    (congrArg₂ (· + ·)
      (congrArg₂ (· * ·)
        ((Cert.Tile.broadcastTo_a1_ab_apply _ broadcasts_S2000x1_S2000x128 p o).trans hs)
        (congrFun e0 (ix2 p o)))
      (congrArg₂ (· * ·)
        ((Cert.Tile.broadcastTo_a1_ab_apply _ broadcasts_S2000x1_S2000x128 p o).trans
          (congrArg (Ideal.ofBits .f32 0x3F800000#32 - ·) hs))
        (congrFun e2 (ix2 p o))))
    rfl).trans ?_
  rw [e0, e2]
  rfl

end Cert.KernelIdeal.Tiles

end
-- ==== Proof.RefStages.lean ====
/-
  The reference's stages read at an entry over the extended reals, as the row-wise gate functions: the edge
  score and the two messages from rows of the two gathered tables, and the result from rows of the two
  normalised aggregates. The gathers and the scatter-sums stay as they are.
-/
import proofs.«148664_j19439021982026_1_alg».proof.Proof.Gen.ReferenceIdeal.Read
import proofs.«148664_j19439021982026_1_alg».proof.Proof.LibRowGate
import proofs.«148664_j19439021982026_1_alg».proof.Proof.LibPlainProduct

noncomputable section

namespace Cert.ReferenceIdeal.Stages

open Cert.ReferenceIdeal Cert.ReferenceIdeal.Read Idealize.ShloMosaic Idealize.ShloMosaic.ValueIdx Cert.RowGate

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal)) (x10 : (⟨S256x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal))

/-- One over one plus the exponential of the negative, in the operations as the reference spells them, is the logistic function. -/
private theorem div_one_add_exp_neg_ops (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z :=
  div_one_add_exp_neg z

/-- Rectified unit j of the edge layer at edge e: the dense layer on the joined rows e of the two gathered tables. -/
private theorem edge_hidden_apply (e : Fin 800000) (j : Fin 128) :
    val_main_v23 (F := Ideal) x0 x1 x6 x7 (ix2 e j)
      = hidden (fun k => val_main_v10 (F := Ideal) x0 x1 (ix2 e k)) (fun k => val_main_v17 (F := Ideal) x0 x1 (ix2 e k))
          (fun k j => x6 (ix2 k j)) (fun j => x7 (ix1 j)) j := by
  rw [val_main_v23_apply, val_main_v22_apply, val_main_v19_apply, val_main_v21_apply, val_main_v20_apply,
    val_main_call0_v0_apply, val_main_call0_cst_apply]
  have hsum : ∀ k : Fin 256,
      val_main_v18 (F := Ideal) x0 x1 (lidx_main_v19 (ix2 e j) k) * x6 (ridx_main_v19 (ix2 e j) k)
        = cat (fun k => val_main_v10 (F := Ideal) x0 x1 (ix2 e k)) (fun k => val_main_v17 (F := Ideal) x0 x1 (ix2 e k)) k
            * x6 (ix2 k j) := by
    intro k
    have hl : lidx_main_v19 (ix2 e j) k = ix2 e k := by
      funext a; match a with | ⟨0, _⟩ => rfl | ⟨1, _⟩ => rfl
    have hr : ridx_main_v19 (ix2 e j) k = ix2 k j := by
      funext a; match a with | ⟨0, _⟩ => rfl | ⟨1, _⟩ => rfl
    rw [hl, hr]
    unfold val_main_v18
    exact congrArg (· * x6 (ix2 k j)) (concat_row _ _ _ e k)
  have h7 : idx_main_v20 (idx_main_v21 (ix2 e j)) = ix1 j := by
    funext a; match a with | ⟨0, _⟩ => rfl
  rw [Finset.sum_congr rfl (fun k _ => hsum k), h7]
  show max (_ + _) (Ideal.ofBits .f32 0x00000000#32) = _
  rw [Ideal.ofBits_zero_f32]
  rfl

/-- The edge score at edge e: the score of rows e of the two gathered tables. -/
theorem edge_score_apply (e : Fin 800000) :
    val_main_v34 (F := Ideal) x0 x1 x6 x7 x8 x9 (ix1 e)
      = (score (fun k => val_main_v10 (F := Ideal) x0 x1 (ix2 e k)) (fun k => val_main_v17 (F := Ideal) x0 x1 (ix2 e k)) (fun k j => x6 (ix2 k j)) (fun j => x7 (ix1 j))
            (fun j => x8 (ix2 j (0 : Fin 1))) (x9 (ix1 (0 : Fin 1)))) := by
  rw [val_main_v34_apply, val_main_v33_apply, val_main_cst_3_apply, val_main_v32_apply, val_main_v31_apply,
    val_main_cst_apply, val_main_v30_apply, val_main_v29_apply, val_main_v28_apply]
  have h28 : idx_main_v28 (ix1 e) = ix2 e (0 : Fin 1) := funext fun a => Fin.ext (by
    match a with
    | ⟨0, _⟩ => exact Nat.div_one _
    | ⟨1, _⟩ => rfl)
  rw [h28, val_main_v27_apply, val_main_v24_apply, val_main_v26_apply, val_main_v25_apply]
  have hsum : ∀ k : Fin 128,
      val_main_v23 (F := Ideal) x0 x1 x6 x7 (lidx_main_v24 (ix2 e (0 : Fin 1)) k) * x8 (ridx_main_v24 (ix2 e (0 : Fin 1)) k)
        = hidden (fun k => val_main_v10 (F := Ideal) x0 x1 (ix2 e k)) (fun k => val_main_v17 (F := Ideal) x0 x1 (ix2 e k))
            (fun k j => x6 (ix2 k j)) (fun j => x7 (ix1 j)) k * x8 (ix2 k (0 : Fin 1)) := by
    intro k
    have hl : lidx_main_v24 (ix2 e (0 : Fin 1)) k = ix2 e k := by
      funext a; match a with | ⟨0, _⟩ => rfl | ⟨1, _⟩ => rfl
    have hr : ridx_main_v24 (ix2 e (0 : Fin 1)) k = ix2 k (0 : Fin 1) := by
      funext a; match a with | ⟨0, _⟩ => rfl | ⟨1, _⟩ => rfl
    rw [hl, hr, edge_hidden_apply]
  have h9 : idx_main_v25 (idx_main_v26 (ix2 e (0 : Fin 1))) = ix1 (0 : Fin 1) := by
    funext a; match a with | ⟨0, _⟩ => rfl
  rw [Finset.sum_congr rfl (fun k _ => hsum k), h9]
  exact div_one_add_exp_neg_ops _

/-- The message towards the destination at (e, o). -/
theorem msg_in_apply (e : Fin 800000) (o : Fin 128) :
    val_main_v41 (F := Ideal) x0 x1 x2 x3 x6 x7 x8 x9 (ix2 e o)
      = msg (fun k => val_main_v10 (F := Ideal) x0 x1 (ix2 e k)) (fun k j => x2 (ix2 k j)) (fun j => x3 (ix1 j))
          (score (fun k => val_main_v10 (F := Ideal) x0 x1 (ix2 e k)) (fun k => val_main_v17 (F := Ideal) x0 x1 (ix2 e k)) (fun k j => x6 (ix2 k j)) (fun j => x7 (ix1 j))
            (fun j => x8 (ix2 j (0 : Fin 1))) (x9 (ix1 (0 : Fin 1)))) o := by
  rw [val_main_v41_apply, val_main_v38_apply, val_main_v35_apply, val_main_v37_apply, val_main_v36_apply,
    val_main_v40_apply, val_main_v39_apply]
  have hsum : ∀ k : Fin 128,
      val_main_v10 (F := Ideal) x0 x1 (lidx_main_v35 (ix2 e o) k) * x2 (ridx_main_v35 (ix2 e o) k)
        = val_main_v10 (F := Ideal) x0 x1 (ix2 e k) * x2 (ix2 k o) := by
    intro k
    have hl : lidx_main_v35 (ix2 e o) k = ix2 e k := by
      funext a; match a with | ⟨0, _⟩ => rfl | ⟨1, _⟩ => rfl
    have hr : ridx_main_v35 (ix2 e o) k = ix2 k o := by
      funext a; match a with | ⟨0, _⟩ => rfl | ⟨1, _⟩ => rfl
    rw [hl, hr]
  have h3 : idx_main_v36 (idx_main_v37 (ix2 e o)) = ix1 o := by
    funext a; match a with | ⟨0, _⟩ => rfl
  have hs : idx_main_v39 (idx_main_v40 (ix2 e o)) = ix1 e := by
    funext a; match a with | ⟨0, _⟩ => rfl
  rw [Finset.sum_congr rfl (fun k _ => hsum k), h3, hs, edge_score_apply]
  rfl

/-- The message towards the source at (e, o). -/
theorem msg_out_apply (e : Fin 800000) (o : Fin 128) :
    val_main_v48 (F := Ideal) x0 x1 x4 x5 x6 x7 x8 x9 (ix2 e o)
      = msg (fun k => val_main_v17 (F := Ideal) x0 x1 (ix2 e k)) (fun k j => x4 (ix2 k j)) (fun j => x5 (ix1 j))
          (score (fun k => val_main_v10 (F := Ideal) x0 x1 (ix2 e k)) (fun k => val_main_v17 (F := Ideal) x0 x1 (ix2 e k)) (fun k j => x6 (ix2 k j)) (fun j => x7 (ix1 j))
            (fun j => x8 (ix2 j (0 : Fin 1))) (x9 (ix1 (0 : Fin 1)))) o := by
  rw [val_main_v48_apply, val_main_v45_apply, val_main_v42_apply, val_main_v44_apply, val_main_v43_apply,
    val_main_v47_apply, val_main_v46_apply]
  have hsum : ∀ k : Fin 128,
      val_main_v17 (F := Ideal) x0 x1 (lidx_main_v42 (ix2 e o) k) * x4 (ridx_main_v42 (ix2 e o) k)
        = val_main_v17 (F := Ideal) x0 x1 (ix2 e k) * x4 (ix2 k o) := by
    intro k
    have hl : lidx_main_v42 (ix2 e o) k = ix2 e k := by
      funext a; match a with | ⟨0, _⟩ => rfl | ⟨1, _⟩ => rfl
    have hr : ridx_main_v42 (ix2 e o) k = ix2 k o := by
      funext a; match a with | ⟨0, _⟩ => rfl | ⟨1, _⟩ => rfl
    rw [hl, hr]
  have h5 : idx_main_v43 (idx_main_v44 (ix2 e o)) = ix1 o := by
    funext a; match a with | ⟨0, _⟩ => rfl
  have hs : idx_main_v46 (idx_main_v47 (ix2 e o)) = ix1 e := by
    funext a; match a with | ⟨0, _⟩ => rfl
  rw [Finset.sum_congr rfl (fun k _ => hsum k), h5, hs, edge_score_apply]
  rfl

/-- Rectified unit j of the node layer at node n: the dense layer on the joined rows n of the two normalised aggregates. -/
private theorem node_hidden_apply (n : Fin 50000) (j : Fin 128) :
    val_main_v77 (F := Ideal) x0 x1 x2 x3 x4 x5 x6 x7 x8 x9 x10 x11 (ix2 n j)
      = hidden (fun k => val_main_v68 (F := Ideal) x0 x1 x2 x3 x6 x7 x8 x9 (ix2 n k))
          (fun k => val_main_v71 (F := Ideal) x0 x1 x4 x5 x6 x7 x8 x9 (ix2 n k))
          (fun k j => x10 (ix2 k j)) (fun j => x11 (ix1 j)) j := by
  rw [val_main_v77_apply, val_main_v76_apply, val_main_v73_apply, val_main_v75_apply, val_main_v74_apply,
    val_main_call1_v0_apply, val_main_call1_cst_apply]
  have hsum : ∀ k : Fin 256,
      val_main_v72 (F := Ideal) x0 x1 x2 x3 x4 x5 x6 x7 x8 x9 (lidx_main_v73 (ix2 n j) k) * x10 (ridx_main_v73 (ix2 n j) k)
        = cat (fun k => val_main_v68 (F := Ideal) x0 x1 x2 x3 x6 x7 x8 x9 (ix2 n k))
            (fun k => val_main_v71 (F := Ideal) x0 x1 x4 x5 x6 x7 x8 x9 (ix2 n k)) k
            * x10 (ix2 k j) := by
    intro k
    have hl : lidx_main_v73 (ix2 n j) k = ix2 n k := by
      funext a; match a with | ⟨0, _⟩ => rfl | ⟨1, _⟩ => rfl
    have hr : ridx_main_v73 (ix2 n j) k = ix2 k j := by
      funext a; match a with | ⟨0, _⟩ => rfl | ⟨1, _⟩ => rfl
    rw [hl, hr]
    unfold val_main_v72
    exact congrArg (· * x10 (ix2 k j)) (concat_row _ _ _ n k)
  have h11 : idx_main_v74 (idx_main_v75 (ix2 n j)) = ix1 j := by
    funext a; match a with | ⟨0, _⟩ => rfl
  rw [Finset.sum_congr rfl (fun k _ => hsum k), h11]
  show max (_ + _) (Ideal.ofBits .f32 0x00000000#32) = _
  rw [Ideal.ofBits_zero_f32]
  rfl

/-- The node score at node n, kept as a column: the score of rows n of the two normalised aggregates. -/
private theorem node_score_apply (n : Fin 50000) :
    val_main_v87 (F := Ideal) x0 x1 x2 x3 x4 x5 x6 x7 x8 x9 x10 x11 x12 x13 (ix2 n (0 : Fin 1))
      = (score (fun k => val_main_v68 (F := Ideal) x0 x1 x2 x3 x6 x7 x8 x9 (ix2 n k))
                (fun k => val_main_v71 (F := Ideal) x0 x1 x4 x5 x6 x7 x8 x9 (ix2 n k))
                (fun k j => x10 (ix2 k j)) (fun j => x11 (ix1 j)) (fun j => x12 (ix2 j (0 : Fin 1))) (x13 (ix1 (0 : Fin 1)))) := by
  rw [val_main_v87_apply, val_main_v86_apply, val_main_cst_12_apply, val_main_v85_apply, val_main_v84_apply,
    val_main_cst_11_apply, val_main_v83_apply, val_main_v82_apply, val_main_v81_apply, val_main_v78_apply,
    val_main_v80_apply, val_main_v79_apply]
  have hsum : ∀ k : Fin 128,
      val_main_v77 (F := Ideal) x0 x1 x2 x3 x4 x5 x6 x7 x8 x9 x10 x11 (lidx_main_v78 (ix2 n (0 : Fin 1)) k)
          * x12 (ridx_main_v78 (ix2 n (0 : Fin 1)) k)
        = hidden (fun k => val_main_v68 (F := Ideal) x0 x1 x2 x3 x6 x7 x8 x9 (ix2 n k))
            (fun k => val_main_v71 (F := Ideal) x0 x1 x4 x5 x6 x7 x8 x9 (ix2 n k))
            (fun k j => x10 (ix2 k j)) (fun j => x11 (ix1 j)) k * x12 (ix2 k (0 : Fin 1)) := by
    intro k
    have hl : lidx_main_v78 (ix2 n (0 : Fin 1)) k = ix2 n k := by
      funext a; match a with | ⟨0, _⟩ => rfl | ⟨1, _⟩ => rfl
    have hr : ridx_main_v78 (ix2 n (0 : Fin 1)) k = ix2 k (0 : Fin 1) := by
      funext a; match a with | ⟨0, _⟩ => rfl | ⟨1, _⟩ => rfl
    rw [hl, hr, node_hidden_apply]
  have h13 : idx_main_v79 (idx_main_v80 (ix2 n (0 : Fin 1))) = ix1 (0 : Fin 1) := by
    funext a; match a with | ⟨0, _⟩ => rfl
  rw [Finset.sum_congr rfl (fun k _ => hsum k), h13]
  exact div_one_add_exp_neg_ops _

/-- The result at (n, o): the two normalised aggregates mixed by node n's score, plus the input. -/
theorem out_apply (n : Fin 50000) (o : Fin 128) :
    val_main_v95 (F := Ideal) x0 x1 x2 x3 x4 x5 x6 x7 x8 x9 x10 x11 x12 x13 (ix2 n o)
      = fuse (score (fun k => val_main_v68 (F := Ideal) x0 x1 x2 x3 x6 x7 x8 x9 (ix2 n k))
                (fun k => val_main_v71 (F := Ideal) x0 x1 x4 x5 x6 x7 x8 x9 (ix2 n k))
                (fun k j => x10 (ix2 k j)) (fun j => x11 (ix1 j)) (fun j => x12 (ix2 j (0 : Fin 1))) (x13 (ix1 (0 : Fin 1))))
          (val_main_v68 (F := Ideal) x0 x1 x2 x3 x6 x7 x8 x9 (ix2 n o))
          (val_main_v71 (F := Ideal) x0 x1 x4 x5 x6 x7 x8 x9 (ix2 n o))
          (x0 (ix2 n o)) := by
  rw [val_main_v95_apply, val_main_v94_apply, val_main_v89_apply, val_main_v93_apply, val_main_v88_apply,
    val_main_v92_apply, val_main_v91_apply, val_main_v90_apply, val_main_cst_13_apply]
  have h88 : idx_main_v88 (ix2 n o) = ix2 n (0 : Fin 1) := by
    funext a; match a with | ⟨0, _⟩ => rfl | ⟨1, _⟩ => rfl
  have h92 : idx_main_v92 (ix2 n o) = ix2 n (0 : Fin 1) := by
    funext a; match a with | ⟨0, _⟩ => rfl | ⟨1, _⟩ => rfl
  rw [h88, h92, node_score_apply]
  rfl

end Cert.ReferenceIdeal.Stages

end
-- ==== Proof.KEdge.lean ====
/-
  The edge kernel's two result arrays after its 250 grid points. Point t loads rows 3200·t … 3200·t + 3199 of the
  two gathered tables and the whole weights and biases, and stores the same rows of the two results; the rows
  tile the 800000 edges. Each stored entry is the message the reference computes for that edge and column, so
  the two arrays end as the reference's two message arrays.
-/
import proofs.«148664_j19439021982026_1_alg».proof.Proof.KHost
import proofs.«148664_j19439021982026_1_alg».proof.Proof.KerTiles
import proofs.«148664_j19439021982026_1_alg».proof.Proof.RefStages
import Idealize.ShloMosaic.Lib.Pipeline.Value
import Idealize.ShloMosaic.Lib.ValueLayout

set_option maxRecDepth 16384

noncomputable section

namespace Cert.KernelIdeal.Vals

open Cert.KernelIdeal Cert.KernelIdeal.Gen Cert.KernelIdeal.GenP
open Idealize.ShloMosaic Idealize.ShloMosaic.TcCoe Idealize.SL.Sem Idealize.ShloMosaic.StableHlo Idealize.ShloMosaic.ValueIdx
open Idealize.ShloMosaic.Pipeline (Dat Cfg Window)

theorem hz2 : (![0, 0] : Fin 2 → Nat) = fun _ => 0 := funext fun a => by fin_cases a <;> rfl

/-- The block index maps over the grid: the two gathered tables and the two results move down one block of rows
    per point; the weights and biases stay at block (0, 0). -/
theorem idx0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_10.index t (0 : Fin 2) = t.val
    ∧ win0_10.index t (1 : Fin 2) = 0
    ∧ win0_11.index t (0 : Fin 2) = t.val
    ∧ win0_11.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

section Blocks
variable {F : FTy → Type} [FloatOps F]
variable (V : (c : Dev nD) → (b : Ref sig .tc) → Buf (Elt F) ((c : Thread nD τ).loc b))

/-- Row p of input block 0 at point t is row 3200·t + p of its array. -/
theorem blk0_w0 (c : Dev nD) (t : Fin cfg0.N) (p : Fin 3200) (k : Fin 128) (h : t.val * 3200 + p.val < 800000) :
    (iblk0 V c 0 t : Vec F S3200x128 .f32) (ix2 p k) = (V c main_v10 : S800000x128.Idx → Elt F .f32) (ix2 ⟨t.val * 3200 + p.val, h⟩ k) := by
  obtain ⟨e0, e1, -⟩ := idx0 t
  unfold iblk0
  rw [View.read_apply]
  show V c main_v10 _ = V c main_v10 _
  congr 1
  funext a
  apply Fin.ext
  match a with
  | ⟨0, _⟩ => show win0_0.index t 0 * 3200 + 1 * p.val = t.val * 3200 + p.val; rw [e0]; omega
  | ⟨1, _⟩ => show win0_0.index t 1 * 128 + 1 * k.val = k.val; rw [e1]; omega

/-- Row p of input block 1 at point t is row 3200·t + p of its array. -/
theorem blk0_w1 (c : Dev nD) (t : Fin cfg0.N) (p : Fin 3200) (k : Fin 128) (h : t.val * 3200 + p.val < 800000) :
    (iblk0 V c 1 t : Vec F S3200x128 .f32) (ix2 p k) = (V c main_v17 : S800000x128.Idx → Elt F .f32) (ix2 ⟨t.val * 3200 + p.val, h⟩ k) := by
  obtain ⟨-, -, e0, e1, -⟩ := idx0 t
  unfold iblk0
  rw [View.read_apply]
  show V c main_v17 _ = V c main_v17 _
  congr 1
  funext a
  apply Fin.ext
  match a with
  | ⟨0, _⟩ => show win0_1.index t 0 * 3200 + 1 * p.val = t.val * 3200 + p.val; rw [e0]; omega
  | ⟨1, _⟩ => show win0_1.index t 1 * 128 + 1 * k.val = k.val; rw [e1]; omega

theorem blk0_w2 (c : Dev nD) (t : Fin cfg0.N) : (iblk0 V c 2 t : Vec F S256x128 .bf16) = (V c main_v18 : S256x128.Idx → Elt F .bf16) := by
  obtain ⟨-, -, -, -, -, -, -, -, e0, e1, -⟩ := idx0 t
  funext j
  unfold iblk0
  rw [View.read_apply]
  show V c main_v18 _ = V c main_v18 _
  congr 1
  funext a
  apply Fin.ext
  match a with
  | ⟨0, _⟩ => show win0_2.index t 0 * 256 + 1 * (j 0).val = (j 0).val; rw [e0]; omega
  | ⟨1, _⟩ => show win0_2.index t 1 * 128 + 1 * (j 1).val = (j 1).val; rw [e1]; omega

theorem blk0_w3 (c : Dev nD) (t : Fin cfg0.N) : (iblk0 V c 3 t : Vec F S1x128 .f32) = (V c main_v22 : S1x128.Idx → Elt F .f32) := by
  obtain ⟨-, -, -, -, -, -, -, -, -, -, e0, e1, -⟩ := idx0 t
  funext j
  unfold iblk0
  rw [View.read_apply]
  show V c main_v22 _ = V c main_v22 _
  congr 1
  funext a
  apply Fin.ext
  match a with
  | ⟨0, _⟩ => show win0_3.index t 0 * 1 + 1 * (j 0).val = (j 0).val; rw [e0]; omega
  | ⟨1, _⟩ => show win0_3.index t 1 * 128 + 1 * (j 1).val = (j 1).val; rw [e1]; omega

theorem blk0_w4 (c : Dev nD) (t : Fin cfg0.N) : (iblk0 V c 4 t : Vec F S128x1 .bf16) = (V c main_v19 : S128x1.Idx → Elt F .bf16) := by
  obtain ⟨-, -, -, -, -, -, -, -, -, -, -, -, e0, e1, -⟩ := idx0 t
  funext j
  unfold iblk0
  rw [View.read_apply]
  show V c main_v19 _ = V c main_v19 _
  congr 1
  funext a
  apply Fin.ext
  match a with
  | ⟨0, _⟩ => show win0_4.index t 0 * 128 + 1 * (j 0).val = (j 0).val; rw [e0]; omega
  | ⟨1, _⟩ => show win0_4.index t 1 * 1 + 1 * (j 1).val = (j 1).val; rw [e1]; omega

theorem blk0_w5 (c : Dev nD) (t : Fin cfg0.N) : (iblk0 V c 5 t : Vec F S1x1 .f32) = (V c main_v23 : S1x1.Idx → Elt F .f32) := by
  obtain ⟨-, -, -, -, -, -, -, -, -, -, -, -, -, -, e0, e1, -⟩ := idx0 t
  funext j
  unfold iblk0
  rw [View.read_apply]
  show V c main_v23 _ = V c main_v23 _
  congr 1
  funext a
  apply Fin.ext
  match a with
  | ⟨0, _⟩ => show win0_5.index t 0 * 1 + 1 * (j 0).val = (j 0).val; rw [e0]; omega
  | ⟨1, _⟩ => show win0_5.index t 1 * 1 + 1 * (j 1).val = (j 1).val; rw [e1]; omega

theorem blk0_w6 (c : Dev nD) (t : Fin cfg0.N) : (iblk0 V c 6 t : Vec F S128x128 .bf16) = (V c main_v20 : S128x128.Idx → Elt F .bf16) := by
  obtain ⟨-, -, -, -, -, -, -, -, -, -, -, -, -, -, -, -, e0, e1, -⟩ := idx0 t
  funext j
  unfold iblk0
  rw [View.read_apply]
  show V c main_v20 _ = V c main_v20 _
  congr 1
  funext a
  apply Fin.ext
  match a with
  | ⟨0, _⟩ => show win0_6.index t 0 * 128 + 1 * (j 0).val = (j 0).val; rw [e0]; omega
  | ⟨1, _⟩ => show win0_6.index t 1 * 128 + 1 * (j 1).val = (j 1).val; rw [e1]; omega

theorem blk0_w7 (c : Dev nD) (t : Fin cfg0.N) : (iblk0 V c 7 t : Vec F S1x128 .f32) = (V c main_v24 : S1x128.Idx → Elt F .f32) := by
  obtain ⟨-, -, -, -, -, -, -, -, -, -, -, -, -, -, -, -, -, -, e0, e1, -⟩ := idx0 t
  funext j
  unfold iblk0
  rw [View.read_apply]
  show V c main_v24 _ = V c main_v24 _
  congr 1
  funext a
  apply Fin.ext
  match a with
  | ⟨0, _⟩ => show win0_7.index t 0 * 1 + 1 * (j 0).val = (j 0).val; rw [e0]; omega
  | ⟨1, _⟩ => show win0_7.index t 1 * 128 + 1 * (j 1).val = (j 1).val; rw [e1]; omega

theorem blk0_w8 (c : Dev nD) (t : Fin cfg0.N) : (iblk0 V c 8 t : Vec F S128x128 .bf16) = (V c main_v21 : S128x128.Idx → Elt F .bf16) := by
  obtain ⟨-, -, -, -, -, -, -, -, -, -, -, -, -, -, -, -, -, -, -, -, e0, e1, -⟩ := idx0 t
  funext j
  unfold iblk0
  rw [View.read_apply]
  show V c main_v21 _ = V c main_v21 _
  congr 1
  funext a
  apply Fin.ext
  match a with
  | ⟨0, _⟩ => show win0_8.index t 0 * 128 + 1 * (j 0).val = (j 0).val; rw [e0]; omega
  | ⟨1, _⟩ => show win0_8.index t 1 * 128 + 1 * (j 1).val = (j 1).val; rw [e1]; omega

theorem blk0_w9 (c : Dev nD) (t : Fin cfg0.N) : (iblk0 V c 9 t : Vec F S1x128 .f32) = (V c main_v25 : S1x128.Idx → Elt F .f32) := by
  obtain ⟨-, -, -, -, -, -, -, -, -, -, -, -, -, -, -, -, -, -, -, -, -, -, e0, e1⟩ := idx0 t
  funext j
  unfold iblk0
  rw [View.read_apply]
  show V c main_v25 _ = V c main_v25 _
  congr 1
  funext a
  apply Fin.ext
  match a with
  | ⟨0, _⟩ => show win0_9.index t 0 * 1 + 1 * (j 0).val = (j 0).val; rw [e0]; omega
  | ⟨1, _⟩ => show win0_9.index t 1 * 128 + 1 * (j 1).val = (j 1).val; rw [e1]; omega

end Blocks

/-- Equal rows, weights and biases give equal scores. -/
theorem score_congr {a a' b b' : Fin 128 → EReal} {W1 W1' : Fin 256 → Fin 128 → EReal} {b1 b1' : Fin 128 → EReal}
    {W2 W2' : Fin 128 → EReal} {b2 b2' : EReal} (ha : a = a') (hb : b = b') (hW1 : W1 = W1') (hb1 : b1 = b1')
    (hW2 : W2 = W2') (hb2 : b2 = b2') : Cert.RowGate.score a b W1 b1 W2 b2 = Cert.RowGate.score a' b' W1' b1' W2' b2' := by
  subst ha hb hW1 hb1 hW2 hb2; rfl

/-- Equal row, weights, bias and score give equal messages. -/
theorem msg_congr {a a' : Fin 128 → EReal} {W W' : Fin 128 → Fin 128 → EReal} {b b' : Fin 128 → EReal} {s s' : EReal}
    (o : Fin 128) (ha : a = a') (hW : W = W') (hb : b = b') (hs : s = s') :
    Cert.RowGate.msg a W b s o = Cert.RowGate.msg a' W' b' s' o := by
  subst ha hW hb hs; rfl

variable (m : (ℓ : Loc nD τ sig) → Buf (Elt Ideal) ℓ) (ρ : Dev nD → PrngReg)

/-- What point t writes back through the first result window is block t of the reference's message array. -/
theorem flushed_in (c : Dev nD) (t : Fin cfg0.N) :
    (dat0 (V1 m ρ) c).flushed 10 t = ((cfg0.win 10).blk t).view.read (Elt Ideal) (Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))) := by
  have ht : t.val < 250 := Nat.lt_of_lt_of_eq t.isLt N_0
  obtain ⟨-, -, -, -, e0, e1, -⟩ := idx0 t
  show (cfg0.win 10).cut (grid0.coords t) ((dat0 (V1 m ρ) c).after 10 t) = _
  rw [after0_10]
  unfold out0_10
  rw [View.canon_unit_zero hz2]
  simp only [View.ld_unit_zero (S := S3200x128) hz2, View.ld_unit_zero (S := S256x128) hz2, View.ld_unit_zero (S := S1x128) hz2,
    View.ld_unit_zero (S := S128x1) hz2, View.ld_unit_zero (S := S1x1) hz2, View.ld_unit_zero (S := S128x128) hz2]
  funext j
  obtain ⟨p, o, rfl⟩ : ∃ (p : Fin 3200) (o : Fin 128), j = ix2 p o := ⟨j 0, j 1, eq_ix2 j⟩
  have he : t.val * 3200 + p.val < 800000 := by have := p.isLt; omega
  refine (Tiles.edge_in_apply _ _ _ _ _ _ _ _ p o).trans ?_
  have hemb : ((cfg0.win 10).blk t).view.emb (ix2 p o) = ix2 ⟨t.val * 3200 + p.val, he⟩ o := by
    funext a; apply Fin.ext
    match a with
    | ⟨0, _⟩ => show win0_10.index t 0 * 3200 + 1 * p.val = t.val * 3200 + p.val; rw [e0]; omega
    | ⟨1, _⟩ => show win0_10.index t 1 * 128 + 1 * o.val = o.val; rw [e1]; omega
  refine Eq.trans ?_ ((congrArg (Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))) hemb).trans
    (Cert.ReferenceIdeal.Stages.msg_in_apply _ _ _ _ _ _ _ _ ⟨t.val * 3200 + p.val, he⟩ o)).symm
  refine msg_congr o ?_ ?_ ?_ (score_congr ?_ ?_ ?_ ?_ ?_ ?_)
  · funext k; exact (blk0_w0 (V1 m ρ) c t p k he).trans (congrFun (entry0_src m ρ c) _)
  · funext k j; rw [blk0_w6]; exact congrFun (entry0_ws2d m ρ c) (ix2 k j)
  · funext j; rw [blk0_w7]; exact (congrFun (entry0_bs2d m ρ c) (ix2 (0 : Fin 1) j)).trans (shapeCast_a_1a_apply _ _ 0 j)
  · funext k; exact (blk0_w0 (V1 m ρ) c t p k he).trans (congrFun (entry0_src m ρ c) _)
  · funext k; exact (blk0_w1 (V1 m ρ) c t p k he).trans (congrFun (entry0_dst m ρ c) _)
  · funext k j; rw [blk0_w2]; exact congrFun (entry0_we1 m ρ c) (ix2 k j)
  · funext j; rw [blk0_w3]; exact (congrFun (entry0_be1 m ρ c) (ix2 (0 : Fin 1) j)).trans (shapeCast_a_1a_apply _ _ 0 j)
  · funext j; rw [blk0_w4]; exact congrFun (entry0_we2 m ρ c) (ix2 j (0 : Fin 1))
  · rw [blk0_w5]; exact (congrFun (entry0_be2 m ρ c) (ix2 (0 : Fin 1) (0 : Fin 1))).trans (shapeCast_a_1a_apply _ _ 0 0)

/-- An index of the first result array lies in point t's block iff each coordinate lies in the block's range. -/
theorem mem_blk10 (t : Fin cfg0.N) (i : S800000x128.Idx) :
    i ∈ ((cfg0.win 10).blk t).view.set ↔ ∀ a : Fin 2, win0_10.index t a * S3200x128.size a ≤ (i a).val ∧ (i a).val < win0_10.index t a * S3200x128.size a + S3200x128.size a := by
  show i ∈ ((View.whole main_v26_0).slice (win0_10.rect t)).set ↔ _
  rw [View.set_slice_whole, Rect.mem_set_unit]
  exact Iff.rfl

/-- Edge row r lies in the block of point r / 3200: the 250 blocks of 3200 rows tile the 800000 rows. -/
theorem cover10 (i : S800000x128.Idx) :
    ∃ t : Fin cfg0.N, (cfg0.win 10).flush t = true ∧ i ∈ ((cfg0.win 10).blk t).view.set := by
  have hi0 : (i 0).val < 800000 := (i 0).isLt
  have hi1 : (i 1).val < 128 := (i 1).isLt
  have hq : (i 0).val / 3200 < cfg0.N := by rw [show cfg0.N = 250 from N_0]; omega
  refine ⟨⟨(i 0).val / 3200, hq⟩, flush0_10 _, ?_⟩
  rw [mem_blk10]
  obtain ⟨-, -, -, -, e0, e1, -⟩ := idx0 ⟨(i 0).val / 3200, hq⟩
  intro a
  match a with
  | ⟨0, _⟩ =>
    show win0_10.index ⟨(i 0).val / 3200, hq⟩ 0 * 3200 ≤ (i 0).val ∧ (i 0).val < win0_10.index ⟨(i 0).val / 3200, hq⟩ 0 * 3200 + 3200
    rw [e0]; show (i 0).val / 3200 * 3200 ≤ (i 0).val ∧ (i 0).val < (i 0).val / 3200 * 3200 + 3200; omega
  | ⟨1, _⟩ =>
    show win0_10.index ⟨(i 0).val / 3200, hq⟩ 1 * 128 ≤ (i 1).val ∧ (i 1).val < win0_10.index ⟨(i 0).val / 3200, hq⟩ 1 * 128 + 128
    rw [e1]; omega

/-- The edge kernel's first result array is the reference's message array towards the destinations. -/
theorem edge_in_final (c : Dev nD) :
    (dat0 (V1 m ρ) c).arrAt 10 cfg0.N = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) :=
  (dat0 (V1 m ρ) c).arrAt_eq_of_cover 10 _ (fun t _ => flushed_in m ρ c t) cover10

/-- What point t writes back through the second result window is block t of the reference's message array. -/
theorem flushed_out (c : Dev nD) (t : Fin cfg0.N) :
    (dat0 (V1 m ρ) c).flushed 11 t = ((cfg0.win 11).blk t).view.read (Elt Ideal) (Cert.ReferenceIdeal.Read.val_main_v48 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  have ht : t.val < 250 := Nat.lt_of_lt_of_eq t.isLt N_0
  obtain ⟨-, -, -, -, -, -, e0, e1, -⟩ := idx0 t
  show (cfg0.win 11).cut (grid0.coords t) ((dat0 (V1 m ρ) c).after 11 t) = _
  rw [after0_11]
  unfold out0_11
  rw [View.canon_unit_zero hz2]
  simp only [View.ld_unit_zero (S := S3200x128) hz2, View.ld_unit_zero (S := S256x128) hz2, View.ld_unit_zero (S := S1x128) hz2,
    View.ld_unit_zero (S := S128x1) hz2, View.ld_unit_zero (S := S1x1) hz2, View.ld_unit_zero (S := S128x128) hz2]
  funext j
  obtain ⟨p, o, rfl⟩ : ∃ (p : Fin 3200) (o : Fin 128), j = ix2 p o := ⟨j 0, j 1, eq_ix2 j⟩
  have he : t.val * 3200 + p.val < 800000 := by have := p.isLt; omega
  refine (Tiles.edge_out_apply _ _ _ _ _ _ _ _ p o).trans ?_
  have hemb : ((cfg0.win 11).blk t).view.emb (ix2 p o) = ix2 ⟨t.val * 3200 + p.val, he⟩ o := by
    funext a; apply Fin.ext
    match a with
    | ⟨0, _⟩ => show win0_11.index t 0 * 3200 + 1 * p.val = t.val * 3200 + p.val; rw [e0]; omega
    | ⟨1, _⟩ => show win0_11.index t 1 * 128 + 1 * o.val = o.val; rw [e1]; omega
  refine Eq.trans ?_ ((congrArg (Cert.ReferenceIdeal.Read.val_main_v48 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) hemb).trans
    (Cert.ReferenceIdeal.Stages.msg_out_apply _ _ _ _ _ _ _ _ ⟨t.val * 3200 + p.val, he⟩ o)).symm
  refine msg_congr o ?_ ?_ ?_ (score_congr ?_ ?_ ?_ ?_ ?_ ?_)
  · funext k; exact (blk0_w1 (V1 m ρ) c t p k he).trans (congrFun (entry0_dst m ρ c) _)
  · funext k j; rw [blk0_w8]; exact congrFun (entry0_wd2s m ρ c) (ix2 k j)
  · funext j; rw [blk0_w9]; exact (congrFun (entry0_bd2s m ρ c) (ix2 (0 : Fin 1) j)).trans (shapeCast_a_1a_apply _ _ 0 j)
  · funext k; exact (blk0_w0 (V1 m ρ) c t p k he).trans (congrFun (entry0_src m ρ c) _)
  · funext k; exact (blk0_w1 (V1 m ρ) c t p k he).trans (congrFun (entry0_dst m ρ c) _)
  · funext k j; rw [blk0_w2]; exact congrFun (entry0_we1 m ρ c) (ix2 k j)
  · funext j; rw [blk0_w3]; exact (congrFun (entry0_be1 m ρ c) (ix2 (0 : Fin 1) j)).trans (shapeCast_a_1a_apply _ _ 0 j)
  · funext j; rw [blk0_w4]; exact congrFun (entry0_we2 m ρ c) (ix2 j (0 : Fin 1))
  · rw [blk0_w5]; exact (congrFun (entry0_be2 m ρ c) (ix2 (0 : Fin 1) (0 : Fin 1))).trans (shapeCast_a_1a_apply _ _ 0 0)

/-- An index of the second result array lies in point t's block iff each coordinate lies in the block's range. -/
theorem mem_blk11 (t : Fin cfg0.N) (i : S800000x128.Idx) :
    i ∈ ((cfg0.win 11).blk t).view.set ↔ ∀ a : Fin 2, win0_11.index t a * S3200x128.size a ≤ (i a).val ∧ (i a).val < win0_11.index t a * S3200x128.size a + S3200x128.size a := by
  show i ∈ ((View.whole main_v26_1).slice (win0_11.rect t)).set ↔ _
  rw [View.set_slice_whole, Rect.mem_set_unit]
  exact Iff.rfl

/-- Edge row r lies in the block of point r / 3200: the 250 blocks of 3200 rows tile the 800000 rows. -/
theorem cover11 (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  have hq : (i 0).val / 3200 < cfg0.N := by rw [show cfg0.N = 250 from N_0]; omega
  refine ⟨⟨(i 0).val / 3200, hq⟩, flush0_11 _, ?_⟩
  rw [mem_blk11]
  obtain ⟨-, -, -, -, -, -, e0, e1, -⟩ := idx0 ⟨(i 0).val / 3200, hq⟩
  intro a
  match a with
  | ⟨0, _⟩ =>
    show win0_11.index ⟨(i 0).val / 3200, hq⟩ 0 * 3200 ≤ (i 0).val ∧ (i 0).val < win0_11.index ⟨(i 0).val / 3200, hq⟩ 0 * 3200 + 3200
    rw [e0]; show (i 0).val / 3200 * 3200 ≤ (i 0).val ∧ (i 0).val < (i 0).val / 3200 * 3200 + 3200; omega
  | ⟨1, _⟩ =>
    show win0_11.index ⟨(i 0).val / 3200, hq⟩ 1 * 128 ≤ (i 1).val ∧ (i 1).val < win0_11.index ⟨(i 0).val / 3200, hq⟩ 1 * 128 + 128
    rw [e1]; omega

/-- The edge kernel's second result array is the reference's message array towards the sources. -/
theorem edge_out_final (c : Dev nD) :
    (dat0 (V1 m ρ) c).arrAt 11 cfg0.N = Cert.ReferenceIdeal.Read.val_main_v48 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (dat0 (V1 m ρ) c).arrAt_eq_of_cover 11 _ (fun t _ => flushed_out m ρ c t) cover11

end Cert.KernelIdeal.Vals

end
-- ==== Proof.KMid.lean ====
/-
  Between the two kernels the host scatter-sums each message array by node, counts each node's edges the same
  way, clamps the counts at one and divides: the same operations, on the same index rows, as the reference
  applies to its own message arrays. So the node kernel is entered with the reference's two normalised
  aggregates, the input table, and the narrowed or re-laid gate weights and biases.
-/
import proofs.«148664_j19439021982026_1_alg».proof.Proof.KEdge

set_option maxRecDepth 16384

noncomputable section

namespace Cert.KernelIdeal.Vals

open Cert.KernelIdeal Cert.KernelIdeal.Gen Cert.KernelIdeal.GenP
open Idealize.ShloMosaic Idealize.ShloMosaic.TcCoe Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

set_option maxHeartbeats 2000000 in
/-- The aggregate over incoming edges the node kernel is entered with. -/
theorem entry1_hin (c : Dev nD) :
    (V3 m ρ c main_v46 : S50000x128.Idx → Ideal .f32) = Cert.ReferenceIdeal.Read.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) := by
  have h3 : W2 m ρ c (Proc.tc.devRef main_v3) = Cert.ReferenceIdeal.Read.val_main_v3 (F := Ideal) (m ((c.tc : Thread nD τ).loc main_arg1)) :=
    (W2_of_ne m ρ c main_v3 (by decide)).trans (entry0_idx_dst m ρ c)
  have hin : W2 m ρ c (Proc.tc.devRef main_v26_0) = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) :=
    (W2_arr m ρ c 10).trans (edge_in_final m ρ c)
  show StableHlo.after hostOps1 (W2 m ρ c) (Proc.devRef .tc main_v46) = _
  generalize hR : Cert.ReferenceIdeal.Read.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) = R
  after_results
  subst hR
  unfold Cert.ReferenceIdeal.Read.val_main_v68 Cert.ReferenceIdeal.Read.val_main_v51 Cert.ReferenceIdeal.Read.val_main_v49 Cert.ReferenceIdeal.Read.val_main_cst_4 Cert.ReferenceIdeal.Read.val_main_v50 Cert.ReferenceIdeal.Read.val_main_v67 Cert.ReferenceIdeal.Read.val_main_v66 Cert.ReferenceIdeal.Read.val_main_v60 Cert.ReferenceIdeal.Read.val_main_v58 Cert.ReferenceIdeal.Read.val_main_v56 Cert.ReferenceIdeal.Read.val_main_cst_7 Cert.ReferenceIdeal.Read.val_main_v57 Cert.ReferenceIdeal.Read.val_main_v55 Cert.ReferenceIdeal.Read.val_main_cst_6 Cert.ReferenceIdeal.Read.val_main_v59 Cert.ReferenceIdeal.Read.val_main_cst_8
  rw [h3, hin]
  generalize Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) = X
  generalize Cert.ReferenceIdeal.Read.val_main_v3 (F := Ideal) (m ((c.tc : Thread nD τ).loc main_arg1)) = I
  rfl

set_option maxHeartbeats 2000000 in
/-- The aggregate over outgoing edges the node kernel is entered with. -/
theorem entry1_hout (c : Dev nD) :
    (V3 m ρ c main_v49 : S50000x128.Idx → Ideal .f32) = Cert.ReferenceIdeal.Read.val_main_v71 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h1 : W2 m ρ c (Proc.tc.devRef main_v1) = Cert.ReferenceIdeal.Read.val_main_v1 (F := Ideal) (m ((c.tc : Thread nD τ).loc main_arg1)) :=
    (W2_of_ne m ρ c main_v1 (by decide)).trans (entry0_idx_src m ρ c)
  have hout : W2 m ρ c (Proc.tc.devRef main_v26_1) = Cert.ReferenceIdeal.Read.val_main_v48 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
    (W2_arr m ρ c 11).trans (edge_out_final m ρ c)
  show StableHlo.after hostOps1 (W2 m ρ c) (Proc.devRef .tc main_v49) = _
  generalize hR : Cert.ReferenceIdeal.Read.val_main_v71 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = R
  after_results
  subst hR
  unfold Cert.ReferenceIdeal.Read.val_main_v71 Cert.ReferenceIdeal.Read.val_main_v54 Cert.ReferenceIdeal.Read.val_main_v52 Cert.ReferenceIdeal.Read.val_main_cst_5 Cert.ReferenceIdeal.Read.val_main_v53 Cert.ReferenceIdeal.Read.val_main_v70 Cert.ReferenceIdeal.Read.val_main_v69 Cert.ReferenceIdeal.Read.val_main_v65 Cert.ReferenceIdeal.Read.val_main_v63 Cert.ReferenceIdeal.Read.val_main_v61 Cert.ReferenceIdeal.Read.val_main_cst_9 Cert.ReferenceIdeal.Read.val_main_v62 Cert.ReferenceIdeal.Read.val_main_v55 Cert.ReferenceIdeal.Read.val_main_cst_6 Cert.ReferenceIdeal.Read.val_main_v64 Cert.ReferenceIdeal.Read.val_main_cst_10
  rw [h1, hout]
  generalize Cert.ReferenceIdeal.Read.val_main_v48 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = X
  generalize Cert.ReferenceIdeal.Read.val_main_v1 (F := Ideal) (m ((c.tc : Thread nD τ).loc main_arg1)) = I
  rfl

theorem entry1_x (c : Dev nD) : (V3 m ρ c main_arg0 : S50000x128.Idx → Ideal .f32) = (m ((c.tc : Thread nD τ).loc main_arg0)) := by
  have h : W3 m ρ c (Proc.devRef .tc main_arg0) = W4 m ρ c (Proc.devRef .tc main_arg0) :=
    ((W4_arr m ρ c 2).trans (((dat1 (V3 m ρ) c).arrAt_in 2 rfl _).trans (A_eq1 (V3 m ρ) c 2))).symm
  exact h.trans (W4_main_arg0 m ρ c)
theorem entry1_wg1 (c : Dev nD) : (V3 m ρ c main_v50 : S256x128.Idx → Ideal .bf16) = truncf (F := Ideal) (s := S256x128) (φ := .f32) .bf16 (m ((c.tc : Thread nD τ).loc main_arg10)) bitsLt_bf16_f32 := by
  have hk : W2 m ρ c (Proc.tc.devRef main_arg10) = m ((c.tc : Thread nD τ).loc main_arg10) := by
    refine (W2_of_ne m ρ c main_arg10 (by decide)).trans ?_
    show StableHlo.after hostOps0 (W0 m ρ c) (Proc.devRef .tc main_arg10) = _
    after_results <;> rfl
  show StableHlo.after hostOps1 (W2 m ρ c) (Proc.devRef .tc main_v50) = _
  after_results
  rw [hk]
theorem entry1_bg1 (c : Dev nD) : (V3 m ρ c main_v52 : S1x128.Idx → Ideal .f32) = shapeCast S1x128 (m ((c.tc : Thread nD τ).loc main_arg11)) shapeCasts_S128_S1x128 := by
  have hk : W2 m ρ c (Proc.tc.devRef main_arg11) = m ((c.tc : Thread nD τ).loc main_arg11) := by
    refine (W2_of_ne m ρ c main_arg11 (by decide)).trans ?_
    show StableHlo.after hostOps0 (W0 m ρ c) (Proc.devRef .tc main_arg11) = _
    after_results <;> rfl
  show StableHlo.after hostOps1 (W2 m ρ c) (Proc.devRef .tc main_v52) = _
  after_results
  rw [hk]
  rfl
theorem entry1_wg2 (c : Dev nD) : (V3 m ρ c main_v51 : S128x1.Idx → Ideal .bf16) = truncf (F := Ideal) (s := S128x1) (φ := .f32) .bf16 (m ((c.tc : Thread nD τ).loc main_arg12)) bitsLt_bf16_f32 := by
  have hk : W2 m ρ c (Proc.tc.devRef main_arg12) = m ((c.tc : Thread nD τ).loc main_arg12) := by
    refine (W2_of_ne m ρ c main_arg12 (by decide)).trans ?_
    show StableHlo.after hostOps0 (W0 m ρ c) (Proc.devRef .tc main_arg12) = _
    after_results <;> rfl
  show StableHlo.after hostOps1 (W2 m ρ c) (Proc.devRef .tc main_v51) = _
  after_results
  rw [hk]
theorem entry1_bg2 (c : Dev nD) : (V3 m ρ c main_v53 : S1x1.Idx → Ideal .f32) = shapeCast S1x1 (m ((c.tc : Thread nD τ).loc main_arg13)) shapeCasts_S1_S1x1 := by
  have hk : W2 m ρ c (Proc.tc.devRef main_arg13) = m ((c.tc : Thread nD τ).loc main_arg13) := by
    refine (W2_of_ne m ρ c main_arg13 (by decide)).trans ?_
    show StableHlo.after hostOps0 (W0 m ρ c) (Proc.devRef .tc main_arg13) = _
    after_results <;> rfl
  show StableHlo.after hostOps1 (W2 m ρ c) (Proc.devRef .tc main_v53) = _
  after_results
  rw [hk]
  rfl

end Cert.KernelIdeal.Vals

end
-- ==== Proof.KGate.lean ====
/-
  The node kernel's result array after its 25 grid points. Point t loads rows 2000·t … 2000·t + 1999 of the two
  normalised aggregates and of the input table, and the whole gate weights and biases, and stores the same rows
  of the result; the rows tile the 50000 nodes. Each stored entry is the reference's result for that node and
  column, so the array ends as the reference's result.
-/
import proofs.«148664_j19439021982026_1_alg».proof.Proof.KMid

set_option maxRecDepth 16384

noncomputable section

namespace Cert.KernelIdeal.Vals

open Cert.KernelIdeal Cert.KernelIdeal.Gen Cert.KernelIdeal.GenP
open Idealize.ShloMosaic Idealize.ShloMosaic.TcCoe Idealize.SL.Sem Idealize.ShloMosaic.StableHlo Idealize.ShloMosaic.ValueIdx
open Idealize.ShloMosaic.Pipeline (Dat Cfg Window)

/-- The block index maps over the grid: the two aggregates, the input table and the result move down one block of
    rows per point; the gate weights and biases stay at block (0, 0). -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_7.index t (0 : Fin 2) = t.val
    ∧ win1_7.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0 :=
  (by decide +kernel : ∀ t : Fin grid1.N, _)

section Blocks
variable {F : FTy → Type} [FloatOps F]
variable (V : (c : Dev nD) → (b : Ref sig .tc) → Buf (Elt F) ((c : Thread nD τ).loc b))

/-- Row p of input block 0 at point t is row 2000·t + p of its array. -/
theorem blk1_w0 (c : Dev nD) (t : Fin cfg1.N) (p : Fin 2000) (k : Fin 128) (h : t.val * 2000 + p.val < 50000) :
    (iblk1 V c 0 t : Vec F S2000x128 .f32) (ix2 p k) = (V c main_v46 : S50000x128.Idx → Elt F .f32) (ix2 ⟨t.val * 2000 + p.val, h⟩ k) := by
  obtain ⟨e0, e1, -⟩ := idx1 t
  unfold iblk1
  rw [View.read_apply]
  show V c main_v46 _ = V c main_v46 _
  congr 1
  funext a
  apply Fin.ext
  match a with
  | ⟨0, _⟩ => show win1_0.index t 0 * 2000 + 1 * p.val = t.val * 2000 + p.val; rw [e0]; omega
  | ⟨1, _⟩ => show win1_0.index t 1 * 128 + 1 * k.val = k.val; rw [e1]; omega

/-- Row p of input block 1 at point t is row 2000·t + p of its array. -/
theorem blk1_w1 (c : Dev nD) (t : Fin cfg1.N) (p : Fin 2000) (k : Fin 128) (h : t.val * 2000 + p.val < 50000) :
    (iblk1 V c 1 t : Vec F S2000x128 .f32) (ix2 p k) = (V c main_v49 : S50000x128.Idx → Elt F .f32) (ix2 ⟨t.val * 2000 + p.val, h⟩ k) := by
  obtain ⟨-, -, e0, e1, -⟩ := idx1 t
  unfold iblk1
  rw [View.read_apply]
  show V c main_v49 _ = V c main_v49 _
  congr 1
  funext a
  apply Fin.ext
  match a with
  | ⟨0, _⟩ => show win1_1.index t 0 * 2000 + 1 * p.val = t.val * 2000 + p.val; rw [e0]; omega
  | ⟨1, _⟩ => show win1_1.index t 1 * 128 + 1 * k.val = k.val; rw [e1]; omega

/-- Row p of input block 2 at point t is row 2000·t + p of its array. -/
theorem blk1_w2 (c : Dev nD) (t : Fin cfg1.N) (p : Fin 2000) (k : Fin 128) (h : t.val * 2000 + p.val < 50000) :
    (iblk1 V c 2 t : Vec F S2000x128 .f32) (ix2 p k) = (V c main_arg0 : S50000x128.Idx → Elt F .f32) (ix2 ⟨t.val * 2000 + p.val, h⟩ k) := by
  obtain ⟨-, -, -, -, e0, e1, -⟩ := idx1 t
  unfold iblk1
  rw [View.read_apply]
  show V c main_arg0 _ = V c main_arg0 _
  congr 1
  funext a
  apply Fin.ext
  match a with
  | ⟨0, _⟩ => show win1_2.index t 0 * 2000 + 1 * p.val = t.val * 2000 + p.val; rw [e0]; omega
  | ⟨1, _⟩ => show win1_2.index t 1 * 128 + 1 * k.val = k.val; rw [e1]; omega

theorem blk1_w3 (c : Dev nD) (t : Fin cfg1.N) : (iblk1 V c 3 t : Vec F S256x128 .bf16) = (V c main_v50 : S256x128.Idx → Elt F .bf16) := by
  obtain ⟨-, -, -, -, -, -, -, -, e0, e1, -⟩ := idx1 t
  funext j
  unfold iblk1
  rw [View.read_apply]
  show V c main_v50 _ = V c main_v50 _
  congr 1
  funext a
  apply Fin.ext
  match a with
  | ⟨0, _⟩ => show win1_3.index t 0 * 256 + 1 * (j 0).val = (j 0).val; rw [e0]; omega
  | ⟨1, _⟩ => show win1_3.index t 1 * 128 + 1 * (j 1).val = (j 1).val; rw [e1]; omega

theorem blk1_w4 (c : Dev nD) (t : Fin cfg1.N) : (iblk1 V c 4 t : Vec F S1x128 .f32) = (V c main_v52 : S1x128.Idx → Elt F .f32) := by
  obtain ⟨-, -, -, -, -, -, -, -, -, -, e0, e1, -⟩ := idx1 t
  funext j
  unfold iblk1
  rw [View.read_apply]
  show V c main_v52 _ = V c main_v52 _
  congr 1
  funext a
  apply Fin.ext
  match a with
  | ⟨0, _⟩ => show win1_4.index t 0 * 1 + 1 * (j 0).val = (j 0).val; rw [e0]; omega
  | ⟨1, _⟩ => show win1_4.index t 1 * 128 + 1 * (j 1).val = (j 1).val; rw [e1]; omega

theorem blk1_w5 (c : Dev nD) (t : Fin cfg1.N) : (iblk1 V c 5 t : Vec F S128x1 .bf16) = (V c main_v51 : S128x1.Idx → Elt F .bf16) := by
  obtain ⟨-, -, -, -, -, -, -, -, -, -, -, -, e0, e1, -⟩ := idx1 t
  funext j
  unfold iblk1
  rw [View.read_apply]
  show V c main_v51 _ = V c main_v51 _
  congr 1
  funext a
  apply Fin.ext
  match a with
  | ⟨0, _⟩ => show win1_5.index t 0 * 128 + 1 * (j 0).val = (j 0).val; rw [e0]; omega
  | ⟨1, _⟩ => show win1_5.index t 1 * 1 + 1 * (j 1).val = (j 1).val; rw [e1]; omega

theorem blk1_w6 (c : Dev nD) (t : Fin cfg1.N) : (iblk1 V c 6 t : Vec F S1x1 .f32) = (V c main_v53 : S1x1.Idx → Elt F .f32) := by
  obtain ⟨-, -, -, -, -, -, -, -, -, -, -, -, -, -, e0, e1⟩ := idx1 t
  funext j
  unfold iblk1
  rw [View.read_apply]
  show V c main_v53 _ = V c main_v53 _
  congr 1
  funext a
  apply Fin.ext
  match a with
  | ⟨0, _⟩ => show win1_6.index t 0 * 1 + 1 * (j 0).val = (j 0).val; rw [e0]; omega
  | ⟨1, _⟩ => show win1_6.index t 1 * 1 + 1 * (j 1).val = (j 1).val; rw [e1]; omega

end Blocks

/-- Equal score and entries give equal mixtures. -/
theorem fuse_congr {g g' u u' v v' x x' : EReal} (hg : g = g') (hu : u = u') (hv : v = v') (hx : x = x') :
    Cert.RowGate.fuse g u v x = Cert.RowGate.fuse g' u' v' x' := by
  subst hg hu hv hx; rfl

/-- Block t of a [50000, 128] array, read at (p, o), is the array at (2000·t + p, o). -/
theorem read_blk7 (G : S50000x128.Idx → Elt Ideal .f32) (t : Fin cfg1.N) (p : Fin 2000) (o : Fin 128)
    (he : t.val * 2000 + p.val < 50000) :
    ((cfg1.win 7).blk t).view.read (Elt Ideal) G (ix2 p o) = G (ix2 ⟨t.val * 2000 + p.val, he⟩ o) := by
  obtain ⟨-, -, -, -, -, -, e0, e1, -⟩ := idx1 t
  rw [View.read_apply]
  refine congrArg G (funext fun a => Fin.ext ?_)
  match a with
  | ⟨0, _⟩ => show win1_7.index t 0 * 2000 + 1 * p.val = t.val * 2000 + p.val; rw [e0]; omega
  | ⟨1, _⟩ => show win1_7.index t 1 * 128 + 1 * o.val = o.val; rw [e1]; omega

variable (m : (ℓ : Loc nD τ sig) → Buf (Elt Ideal) ℓ) (ρ : Dev nD → PrngReg)

/-- What point t writes back through the result window is block t of the reference's result. -/
theorem flushed_gate (c : Dev nD) (t : Fin cfg1.N) :
    (dat1 (V3 m ρ) c).flushed 7 t = ((cfg1.win 7).blk t).view.read (Elt Ideal) (Cert.ReferenceIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  have ht : t.val < 25 := Nat.lt_of_lt_of_eq t.isLt N_1
  show (cfg1.win 7).cut (grid1.coords t) ((dat1 (V3 m ρ) c).after 7 t) = _
  rw [after1_7]
  unfold out1_7
  rw [View.canon_unit_zero hz2]
  simp only [View.ld_unit_zero (S := S2000x128) hz2, View.ld_unit_zero (S := S256x128) hz2, View.ld_unit_zero (S := S1x128) hz2,
    View.ld_unit_zero (S := S128x1) hz2, View.ld_unit_zero (S := S1x1) hz2]
  funext j
  obtain ⟨p, o, rfl⟩ : ∃ (p : Fin 2000) (o : Fin 128), j = ix2 p o := ⟨j 0, j 1, eq_ix2 j⟩
  have he : t.val * 2000 + p.val < 50000 := by have := p.isLt; omega
  refine (Tiles.gate_apply _ _ _ _ _ _ _ p o).trans ?_
  refine Eq.trans ?_ ((read_blk7 (Cert.ReferenceIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) t p o he).trans
    (Cert.ReferenceIdeal.Stages.out_apply _ _ _ _ _ _ _ _ _ _ _ _ _ _ ⟨t.val * 2000 + p.val, he⟩ o)).symm
  refine fuse_congr (score_congr ?_ ?_ ?_ ?_ ?_ ?_) ?_ ?_ ?_
  · funext k; exact (blk1_w0 (V3 m ρ) c t p k he).trans (congrFun (entry1_hin m ρ c) _)
  · funext k; exact (blk1_w1 (V3 m ρ) c t p k he).trans (congrFun (entry1_hout m ρ c) _)
  · funext k j; rw [blk1_w3]; exact congrFun (entry1_wg1 m ρ c) (ix2 k j)
  · funext j; rw [blk1_w4]; exact (congrFun (entry1_bg1 m ρ c) (ix2 (0 : Fin 1) j)).trans (shapeCast_a_1a_apply _ _ 0 j)
  · funext j; rw [blk1_w5]; exact congrFun (entry1_wg2 m ρ c) (ix2 j (0 : Fin 1))
  · rw [blk1_w6]; exact (congrFun (entry1_bg2 m ρ c) (ix2 (0 : Fin 1) (0 : Fin 1))).trans (shapeCast_a_1a_apply _ _ 0 0)
  · exact (blk1_w0 (V3 m ρ) c t p o he).trans (congrFun (entry1_hin m ρ c) _)
  · exact (blk1_w1 (V3 m ρ) c t p o he).trans (congrFun (entry1_hout m ρ c) _)
  · exact (blk1_w2 (V3 m ρ) c t p o he).trans (congrFun (entry1_x m ρ c) _)

/-- An index of the result array lies in point t's block iff each coordinate lies in the block's range. -/
theorem mem_blk7 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v54).slice (win1_7.rect t)).set ↔ _
  rw [View.set_slice_whole, Rect.mem_set_unit]
  exact Iff.rfl

/-- Node row r lies in the block of point r / 2000: the 25 blocks of 2000 rows tile the 50000 rows. -/
theorem cover7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hq : (i 0).val / 2000 < cfg1.N := by rw [show cfg1.N = 25 from N_1]; omega
  refine ⟨⟨(i 0).val / 2000, hq⟩, flush1_7 _, ?_⟩
  rw [mem_blk7]
  obtain ⟨-, -, -, -, -, -, e0, e1, -⟩ := idx1 ⟨(i 0).val / 2000, hq⟩
  intro a
  match a with
  | ⟨0, _⟩ =>
    show win1_7.index ⟨(i 0).val / 2000, hq⟩ 0 * 2000 ≤ (i 0).val ∧ (i 0).val < win1_7.index ⟨(i 0).val / 2000, hq⟩ 0 * 2000 + 2000
    rw [e0]; show (i 0).val / 2000 * 2000 ≤ (i 0).val ∧ (i 0).val < (i 0).val / 2000 * 2000 + 2000; omega
  | ⟨1, _⟩ =>
    show win1_7.index ⟨(i 0).val / 2000, hq⟩ 1 * 128 ≤ (i 1).val ∧ (i 1).val < win1_7.index ⟨(i 0).val / 2000, hq⟩ 1 * 128 + 128
    rw [e1]; omega

/-- The node kernel's result array is the reference's result. -/
theorem gate_final (c : Dev nD) :
    (dat1 (V3 m ρ) c).arrAt 7 cfg1.N = Cert.ReferenceIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (dat1 (V3 m ρ) c).arrAt_eq_of_cover 7 _ (fun t _ => flushed_gate m ρ c t) cover7

end Cert.KernelIdeal.Vals

end
-- ==== Proof.lean ====
/-
  A gated, direction-aware graph convolution on 50000 nodes and 800000 edges. Per edge, a score in [0, 1] is the
  logistic function of a two-layer perceptron on the two endpoint rows laid side by side; each endpoint row, sent
  through its own linear layer, is scaled by the score into a message; the messages are summed into the opposite
  endpoints and divided by the clamped degrees; per node, a second score mixes the two normalised aggregates, and
  the node's own row is added. The kernel computes the per-edge messages in tiles of 3200 edges and the per-node
  mixture in tiles of 2000 nodes, with the gathers, the scatter-sums and the degree division on the host; the
  reference does everything on the host on whole arrays.
  Over the extended reals the two programs are the same composition of the same exact operations — a change of
  float format is the identity, a tile's product into a zero accumulator and a whole product are the same sum,
  the kernel's logistic operation is one over one plus the exponential of the negative — so no algebraic law,
  and no finiteness, is needed: the edge kernel's two result arrays are the reference's message arrays row by row,
  the host operations between the kernels are the reference's own, and the node kernel's result is the
  reference's result row by row.
-/
import proofs.«148664_j19439021982026_1_alg».proof.Defs
import proofs.«148664_j19439021982026_1_alg».proof.Proof.FrameK
import proofs.«148664_j19439021982026_1_alg».proof.Proof.RunKI
import proofs.«148664_j19439021982026_1_alg».proof.Proof.KGate
import proofs.«148664_j19439021982026_1_alg».proof.Proof.Gen.ReferenceIdeal
import proofs.«148664_j19439021982026_1_alg».proof.Proof.Gen.ReferenceIdeal.Run
import proofs.«148664_j19439021982026_1_alg».proof.Proof.Gen.ReferenceIdeal.Read
import proofs.«148664_j19439021982026_1_alg».proof.Proof.Gen.Pre_finite_inputs
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's result stage of the arguments: the kernel because its last region's
    result array is that stage (the blocks its 25 points write back tile it), the reference by its own run. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans ((Cert.KernelIdeal.GenP.W4_arr m ρ c 7).trans (Cert.KernelIdeal.Vals.gate_final m ρ c)), (h c).2⟩)
      (Cert.KernelIdeal.RunP.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v95_eq, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
